-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x255x76x76 : Shape := ⟨4, ![16, 255, 76, 76]⟩
abbrev S_ : Shape := ⟨0, ![]⟩

class Facts : Prop where
  bcast_S_S16x255x76x76 : S_.BroadcastsInDim S16x255x76x76 (![] : Fin 0 → Fin S16x255x76x76.rank)
  reducesTo_S16x255x76x76_S_d0_1_2_3 : S16x255x76x76.ReducesTo [0, 1, 2, 3] S_
  h_S_ : 0 < S_.numel

variable [Facts]

def fn {F : FTy → Type} [FloatOps F] (main_arg0 : FVec F S16x255x76x76 .f32) (main_arg1 : IVec S_ 32) : IVec S_ 1 :=
  let main_c : IVec S_ 32 := constantI S_ 32 76#32
  let main_v0 : IVec S_ 32 := Host.divsi main_arg1 main_c
  let main_v1 : IVec S_ 32 := signi main_arg1
  let main_c_0 : IVec S_ 32 := constantI S_ 32 76#32
  let main_v2 : IVec S_ 32 := signi main_c_0
  let main_v3 : IVec S_ 1 := cmpi .ne main_v1 main_v2
  let main_c_1 : IVec S_ 32 := constantI S_ 32 76#32
  let main_v4 : IVec S_ 32 := Host.remsi main_arg1 main_c_1
  let main_c_2 : IVec S_ 32 := constantI S_ 32 0#32
  let main_v5 : IVec S_ 1 := cmpi .ne main_v4 main_c_2
  let main_v6 : IVec S_ 1 := andi main_v3 main_v5
  let main_c_3 : IVec S_ 32 := constantI S_ 32 1#32
  let main_v7 : IVec S_ 32 := subi main_v0 main_c_3
  let main_v8 : IVec S_ 32 := select main_v6 main_v7 main_v0
  let main_v9 : FVec F S16x255x76x76 .f32 := Host.absf main_arg0
  let main_cst : FVec F S_ .f32 := constant S_ .f32 0x7F800000#32
  let main_v10 : FVec F S16x255x76x76 .f32 := broadcastInDim S16x255x76x76 ![] bcast_S_S16x255x76x76 main_cst
  let main_v11 : IVec S16x255x76x76 1 := cmpf .olt main_v9 main_v10
  let main_c_4 : IVec S_ 1 := constantI S_ 1 1#1
  let main_v12 : IVec S_ 1 := (fun x v => Host.reduce IntOp.andi x v reducesTo_S16x255x76x76_S_d0_1_2_3 h_S_) main_v11 main_c_4
  let main_c_5 : IVec S_ 32 := constantI S_ 32 0#32
  let main_v13 : IVec S_ 1 := cmpi .ne main_v8 main_c_5
  let main_v14 : IVec S_ 1 := andi main_v12 main_v13
  main_v14
-- ==== Kernel.lean ====
abbrev S16x255x76x76 : Shape := ⟨4, ![16, 255, 76, 76]⟩
abbrev S_ : Shape := ⟨0, ![]⟩
abbrev S255 : Shape := ⟨1, ![255]⟩
abbrev S76x76x16x255 : Shape := ⟨4, ![76, 76, 16, 255]⟩
abbrev S1x255 : Shape := ⟨2, ![1, 255]⟩
abbrev S4x255 : Shape := ⟨2, ![4, 255]⟩
abbrev S16x5776x255 : Shape := ⟨3, ![16, 5776, 255]⟩
abbrev S2x76x16x255 : Shape := ⟨4, ![2, 76, 16, 255]⟩
abbrev S16x152x255 : Shape := ⟨3, ![16, 152, 255]⟩
abbrev S1x1x1x255 : Shape := ⟨4, ![1, 1, 1, 255]⟩
abbrev S1x76x1x1 : Shape := ⟨4, ![1, 76, 1, 1]⟩
abbrev S2x1x1x1 : Shape := ⟨4, ![2, 1, 1, 1]⟩
abbrev S1x76x1x255 : Shape := ⟨4, ![1, 76, 1, 255]⟩
abbrev S2x1x1x255 : Shape := ⟨4, ![2, 1, 1, 255]⟩
abbrev S16x2x76x255 : Shape := ⟨4, ![16, 2, 76, 255]⟩
abbrev S16x17328x85 : Shape := ⟨3, ![16, 17328, 85]⟩

abbrev nBuf : Space → Nat
  | .hbm => 40
  | .vmem => 5
  | .smem => 0
  | _ => 0

abbrev bufTy : (tb : Table) → Fin (tcTables nBuf tb) → BufTy
  | .hbm, ⟨0, _⟩ => ⟨S16x255x76x76, .f32⟩
  | .hbm, ⟨1, _⟩ => ⟨S_, .i32⟩
  | .hbm, ⟨2, _⟩ => ⟨S255, .f32⟩
  | .hbm, ⟨3, _⟩ => ⟨S255, .f32⟩
  | .hbm, ⟨4, _⟩ => ⟨S255, .f32⟩
  | .hbm, ⟨5, _⟩ => ⟨S255, .f32⟩
  | .hbm, ⟨6, _⟩ => ⟨S255, .f32⟩
  | .hbm, ⟨7, _⟩ => ⟨S76x76x16x255, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S255, .f32⟩
  | .hbm, ⟨24, _⟩ => ⟨S255, .f32⟩
  | .hbm, ⟨25, _⟩ => ⟨S255, .f32⟩
  | .hbm, ⟨26, _⟩ => ⟨S255, .f32⟩
  | .hbm, ⟨27, _⟩ => ⟨S255, .f32⟩
  | .hbm, ⟨28, _⟩ => ⟨S255, .f32⟩
  | .hbm, ⟨29, _⟩ => ⟨S255, .f32⟩
  | .hbm, ⟨30, _⟩ => ⟨S255, .f32⟩
  | .hbm, ⟨31, _⟩ => ⟨S255, .f32⟩
  | .hbm, ⟨32, _⟩ => ⟨S255, .f32⟩
  | .hbm, ⟨33, _⟩ => ⟨S1x255, .f32⟩
  | .hbm, ⟨34, _⟩ => ⟨S1x255, .f32⟩
  | .hbm, ⟨35, _⟩ => ⟨S1x255, .f32⟩
  | .hbm, ⟨36, _⟩ => ⟨S1x255, .f32⟩
  | .hbm, ⟨37, _⟩ => ⟨S4x255, .f32⟩
  | .hbm, ⟨38, _⟩ => ⟨S16x5776x255, .f32⟩
  | .hbm, ⟨39, _⟩ => ⟨S16x17328x85, .f32⟩
  | .local _ .vmem, ⟨0, _⟩ => ⟨S2x76x16x255, .f32⟩
  | .local _ .vmem, ⟨1, _⟩ => ⟨S2x76x16x255, .f32⟩
  | .local _ .vmem, ⟨2, _⟩ => ⟨S4x255, .f32⟩
  | .local _ .vmem, ⟨3, _⟩ => ⟨S16x152x255, .f32⟩
  | .local _ .vmem, ⟨4, _⟩ => ⟨S16x152x255, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v1 : Ref sig .tc := ⟨.hbm, 20, rfl⟩
abbrev main_v2 : Ref sig .tc := ⟨.hbm, 21, rfl⟩
abbrev main_cst_4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![38], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x76x16x255 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x152x255 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x255x76x76_S76x76x16x255_2_3_0_1 : S16x255x76x76.Transposes [2, 3, 0, 1] S76x76x16x255
  bcast_S_S255 : S_.BroadcastsInDim S255 (![] : Fin 0 → Fin S255.rank)
  bcast_S255_S1x255_1 : S255.BroadcastsInDim S1x255 (![1] : Fin 1 → Fin S1x255.rank)
  concatenates_S1x255_S1x255_S1x255_S1x255_S4x255_d0 : Shape.Concatenates [S1x255, S1x255, S1x255, S1x255] S4x255 0
  inb_S2x76x16x255_S2x76x16x255_0_0_0_0 : ∀ a, (![0, 0, 0, 0] : Fin 4 → Nat) a + S2x76x16x255.size a ≤ S2x76x16x255.size a
  h_S2x76x16x255 : 0 < S2x76x16x255.numel
  shapeCasts_S2x76x16x255_S2x76x16x255 : S2x76x16x255.ShapeCasts S2x76x16x255
  inb_S4x255_S1x255_0_0 : ∀ a, (![0, 0] : Fin 2 → Nat) a + S1x255.size a ≤ S4x255.size a
  h_S1x255 : 0 < S1x255.numel
  shapeCasts_S1x255_S1x255 : S1x255.ShapeCasts S1x255
  shapeCasts_S1x255_S1x1x1x255 : S1x255.ShapeCasts S1x1x1x255
  inb_S4x255_S1x255_1_0 : ∀ a, (![1, 0] : Fin 2 → Nat) a + S1x255.size a ≤ S4x255.size a
  inb_S4x255_S1x255_2_0 : ∀ a, (![2, 0] : Fin 2 → Nat) a + S1x255.size a ≤ S4x255.size a
  inb_S4x255_S1x255_3_0 : ∀ a, (![3, 0] : Fin 2 → Nat) a + S1x255.size a ≤ S4x255.size a
  broadcasts_S1x1x1x255_S2x76x16x255 : S1x1x1x255.Broadcasts S2x76x16x255
  iota_S1x76x1x1_d1_w32 : S1x76x1x1.Iotas .tc 32 [1]
  iota_S2x1x1x1_d0_w32 : S2x1x1x1.Iotas .tc 32 [0]
  broadcasts_S1x1x1x255_S1x76x1x255 : S1x1x1x255.Broadcasts S1x76x1x255
  broadcasts_S1x76x1x1_S1x76x1x255 : S1x76x1x1.Broadcasts S1x76x1x255
  broadcasts_S1x76x1x255_S2x76x16x255 : S1x76x1x255.Broadcasts S2x76x16x255
  broadcasts_S1x1x1x255_S2x1x1x255 : S1x1x1x255.Broadcasts S2x1x1x255
  broadcasts_S2x1x1x1_S2x1x1x255 : S2x1x1x1.Broadcasts S2x1x1x255
  broadcasts_S2x1x1x255_S2x76x16x255 : S2x1x1x255.Broadcasts S2x76x16x255
  transposes_S2x76x16x255_p2_0_1_3_S16x2x76x255 : S2x76x16x255.Transposes [2, 0, 1, 3] S16x2x76x255
  shapeCasts_S16x2x76x255_S16x152x255 : S16x2x76x255.ShapeCasts S16x152x255
  inb_S16x152x255_S16x152x255_0_0_0 : ∀ a, (![0, 0, 0] : Fin 3 → Nat) a + S16x152x255.size a ≤ S16x152x255.size a
  h_S16x152x255 : 0 < S16x152x255.numel
  shapeCasts_S16x5776x255_S16x17328x85 : S16x5776x255.ShapeCasts S16x17328x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x76x16x255.size a ≤ S76x76x16x255.size a
  hwx0_0 : ∀ i : grid0.Coords, EltTy.bits .f32 = 32 ∨ (Rect.block (s := S76x76x16x255) S2x76x16x255.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x255.size a ≤ S4x255.size a
  hwx0_1 : ∀ i : grid0.Coords, EltTy.bits .f32 = 32 ∨ (Rect.block (s := S4x255) S4x255.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x152x255.size a ≤ S16x5776x255.size a
  hwx0_2 : ∀ i : grid0.Coords, EltTy.bits .f32 = 32 ∨ (Rect.block (s := S16x5776x255) S16x152x255.size (cc0_transform_2 i) (hinb0_2 i)).WholeWords (EltTy.packing .f32)

variable [Facts₀]

abbrev win0_0 : Pipeline.Window sig grid0 :=
  Pipeline.Window.ofSpec (Memref.whole main_v0) S2x76x16x255.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x255.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x152x255.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x255x76x76 : Shape := ⟨4, ![16, 255, 76, 76]⟩
abbrev S_ : Shape := ⟨0, ![]⟩
abbrev S3x2 : Shape := ⟨2, ![3, 2]⟩
abbrev S16x3x85x5776 : Shape := ⟨4, ![16, 3, 85, 5776]⟩
abbrev S16x5776x3x85 : Shape := ⟨4, ![16, 5776, 3, 85]⟩
abbrev S16x5776x3x2 : Shape := ⟨4, ![16, 5776, 3, 2]⟩
abbrev S1x1x3x2 : Shape := ⟨4, ![1, 1, 3, 2]⟩
abbrev S16x5776x3x81 : Shape := ⟨4, ![16, 5776, 3, 81]⟩
abbrev S76 : Shape := ⟨1, ![76]⟩
abbrev S76x76 : Shape := ⟨2, ![76, 76]⟩
abbrev S5776 : Shape := ⟨1, ![5776]⟩
abbrev S16x5776x3x1 : Shape := ⟨4, ![16, 5776, 3, 1]⟩
abbrev S16x5776x3 : Shape := ⟨3, ![16, 5776, 3]⟩
abbrev S1x5776x1 : Shape := ⟨3, ![1, 5776, 1]⟩
abbrev S16x17328x85 : Shape := ⟨3, ![16, 17328, 85]⟩

abbrev nBuf : Space → Nat
  | .hbm => 77
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S_, .i32⟩
  | .hbm, ⟨2, _⟩ => ⟨S3x2, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S3x2, .f32⟩
  | .hbm, ⟨18, _⟩ => ⟨S3x2, .f32⟩
  | .hbm, ⟨19, _⟩ => ⟨S16x3x85x5776, .f32⟩
  | .hbm, ⟨20, _⟩ => ⟨S16x5776x3x85, .f32⟩
  | .hbm, ⟨21, _⟩ => ⟨S16x5776x3x2, .f32⟩
  | .hbm, ⟨22, _⟩ => ⟨S16x5776x3x2, .f32⟩
  | .hbm, ⟨23, _⟩ => ⟨S16x5776x3x2, .f32⟩
  | .hbm, ⟨24, _⟩ => ⟨S_, .f32⟩
  | .hbm, ⟨25, _⟩ => ⟨S16x5776x3x2, .f32⟩
  | .hbm, ⟨26, _⟩ => ⟨S16x5776x3x2, .f32⟩
  | .hbm, ⟨27, _⟩ => ⟨S_, .f32⟩
  | .hbm, ⟨28, _⟩ => ⟨S16x5776x3x2, .f32⟩
  | .hbm, ⟨29, _⟩ => ⟨S16x5776x3x2, .f32⟩
  | .hbm, ⟨30, _⟩ => ⟨S_, .f32⟩
  | .hbm, ⟨31, _⟩ => ⟨S16x5776x3x2, .f32⟩
  | .hbm, ⟨32, _⟩ => ⟨S16x5776x3x2, .f32⟩
  | .hbm, ⟨33, _⟩ => ⟨S_, .f32⟩
  | .hbm, ⟨34, _⟩ => ⟨S16x5776x3x2, .f32⟩
  | .hbm, ⟨35, _⟩ => ⟨S16x5776x3x2, .f32⟩
  | .hbm, ⟨36, _⟩ => ⟨S16x5776x3x2, .f32⟩
  | .hbm, ⟨37, _⟩ => ⟨S16x5776x3x2, .f32⟩
  | .hbm, ⟨38, _⟩ => ⟨S1x1x3x2, .f32⟩
  | .hbm, ⟨39, _⟩ => ⟨S16x5776x3x2, .f32⟩
  | .hbm, ⟨40, _⟩ => ⟨S16x5776x3x2, .f32⟩
  | .hbm, ⟨41, _⟩ => ⟨S16x5776x3x81, .f32⟩
  | .hbm, ⟨42, _⟩ => ⟨S16x5776x3x81, .f32⟩
  | .hbm, ⟨43, _⟩ => ⟨S16x5776x3x81, .f32⟩
  | .hbm, ⟨44, _⟩ => ⟨S_, .f32⟩
  | .hbm, ⟨45, _⟩ => ⟨S16x5776x3x81, .f32⟩
  | .hbm, ⟨46, _⟩ => ⟨S16x5776x3x81, .f32⟩
  | .hbm, ⟨47, _⟩ => ⟨S_, .f32⟩
  | .hbm, ⟨48, _⟩ => ⟨S16x5776x3x81, .f32⟩
  | .hbm, ⟨49, _⟩ => ⟨S16x5776x3x81, .f32⟩
  | .hbm, ⟨50, _⟩ => ⟨S76, .i32⟩
  | .hbm, ⟨51, _⟩ => ⟨S76x76, .i32⟩
  | .hbm, ⟨52, _⟩ => ⟨S76x76, .i32⟩
  | .hbm, ⟨53, _⟩ => ⟨S5776, .i32⟩
  | .hbm, ⟨54, _⟩ => ⟨S5776, .f32⟩
  | .hbm, ⟨55, _⟩ => ⟨S5776, .i32⟩
  | .hbm, ⟨56, _⟩ => ⟨S5776, .f32⟩
  | .hbm, ⟨57, _⟩ => ⟨S16x5776x3x1, .f32⟩
  | .hbm, ⟨58, _⟩ => ⟨S16x5776x3, .f32⟩
  | .hbm, ⟨59, _⟩ => ⟨S1x5776x1, .f32⟩
  | .hbm, ⟨60, _⟩ => ⟨S16x5776x3, .f32⟩
  | .hbm, ⟨61, _⟩ => ⟨S16x5776x3, .f32⟩
  | .hbm, ⟨62, _⟩ => ⟨S16x5776x3, .f32⟩
  | .hbm, ⟨63, _⟩ => ⟨S16x5776x3, .f32⟩
  | .hbm, ⟨64, _⟩ => ⟨S16x5776x3x1, .f32⟩
  | .hbm, ⟨65, _⟩ => ⟨S16x5776x3, .f32⟩
  | .hbm, ⟨66, _⟩ => ⟨S1x5776x1, .f32⟩
  | .hbm, ⟨67, _⟩ => ⟨S16x5776x3, .f32⟩
  | .hbm, ⟨68, _⟩ => ⟨S16x5776x3, .f32⟩
  | .hbm, ⟨69, _⟩ => ⟨S16x5776x3, .f32⟩
  | .hbm, ⟨70, _⟩ => ⟨S16x5776x3, .f32⟩
  | .hbm, ⟨71, _⟩ => ⟨S16x5776x3x2, .f32⟩
  | .hbm, ⟨72, _⟩ => ⟨S16x5776x3x2, .f32⟩
  | .hbm, ⟨73, _⟩ => ⟨S16x5776x3x1, .f32⟩
  | .hbm, ⟨74, _⟩ => ⟨S16x5776x3x1, .f32⟩
  | .hbm, ⟨75, _⟩ => ⟨S16x5776x3x85, .f32⟩
  | .hbm, ⟨76, _⟩ => ⟨S16x17328x85, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_v7 : Ref sig .tc := ⟨.hbm, 12, rfl⟩
abbrev main_call0_c_0 : Ref sig .tc := ⟨.hbm, 13, rfl⟩
abbrev main_call0_v8 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S3x2 : S_.BroadcastsInDim S3x2 (![] : Fin 0 → Fin S3x2.rank)
  shapeCasts_S16x255x76x76_S16x3x85x5776 : S16x255x76x76.ShapeCasts S16x3x85x5776
  transposes_S16x3x85x5776_S16x5776x3x85_0_3_1_2 : S16x3x85x5776.Transposes [0, 3, 1, 2] S16x5776x3x85
  slices_S16x5776x3x85_S16x5776x3x2_0_0_0_0 : S16x5776x3x85.Slices ![0, 0, 0, 0] S16x5776x3x2
  bcast_S_S16x5776x3x2 : S_.BroadcastsInDim S16x5776x3x2 (![] : Fin 0 → Fin S16x5776x3x2.rank)
  slices_S16x5776x3x85_S16x5776x3x2_0_0_0_2 : S16x5776x3x85.Slices ![0, 0, 0, 2] S16x5776x3x2
  bcast_S3x2_S1x1x3x2_2_3 : S3x2.BroadcastsInDim S1x1x3x2 (![2, 3] : Fin 2 → Fin S1x1x3x2.rank)
  bcast_S1x1x3x2_S16x5776x3x2_0_1_2_3 : S1x1x3x2.BroadcastsInDim S16x5776x3x2 (![0, 1, 2, 3] : Fin 4 → Fin S16x5776x3x2.rank)
  slices_S16x5776x3x85_S16x5776x3x81_0_0_0_4 : S16x5776x3x85.Slices ![0, 0, 0, 4] S16x5776x3x81
  bcast_S_S16x5776x3x81 : S_.BroadcastsInDim S16x5776x3x81 (![] : Fin 0 → Fin S16x5776x3x81.rank)
  bcast_S76_S76x76_0 : S76.BroadcastsInDim S76x76 (![0] : Fin 1 → Fin S76x76.rank)
  bcast_S76_S76x76_1 : S76.BroadcastsInDim S76x76 (![1] : Fin 1 → Fin S76x76.rank)
  shapeCasts_S76x76_S5776 : S76x76.ShapeCasts S5776
  slices_S16x5776x3x2_S16x5776x3x1_0_0_0_0 : S16x5776x3x2.Slices ![0, 0, 0, 0] S16x5776x3x1
  shapeCasts_S16x5776x3x1_S16x5776x3 : S16x5776x3x1.ShapeCasts S16x5776x3
  bcast_S5776_S1x5776x1_1 : S5776.BroadcastsInDim S1x5776x1 (![1] : Fin 1 → Fin S1x5776x1.rank)
  bcast_S1x5776x1_S16x5776x3_0_1_2 : S1x5776x1.BroadcastsInDim S16x5776x3 (![0, 1, 2] : Fin 3 → Fin S16x5776x3.rank)
  bcast_S_S16x5776x3 : S_.BroadcastsInDim S16x5776x3 (![] : Fin 0 → Fin S16x5776x3.rank)
  slices_S16x5776x3x2_S16x5776x3x1_0_0_0_1 : S16x5776x3x2.Slices ![0, 0, 0, 1] S16x5776x3x1
  bcast_S16x5776x3_S16x5776x3x1_0_1_2 : S16x5776x3.BroadcastsInDim S16x5776x3x1 (![0, 1, 2] : Fin 3 → Fin S16x5776x3x1.rank)
  concatenates_S16x5776x3x1_S16x5776x3x1_S16x5776x3x2_S16x5776x3x81_S16x5776x3x85_d3 : Shape.Concatenates [S16x5776x3x1, S16x5776x3x1, S16x5776x3x2, S16x5776x3x81] S16x5776x3x85 3
  shapeCasts_S16x5776x3x85_S16x17328x85 : S16x5776x3x85.ShapeCasts S16x17328x85

variable [Facts₀]

class Facts : Prop extends Facts₀ where

variable [Facts]
-- ==== Proof.KFrameBits.lean ====
/-
  The kernel's program runs to the end: its host operations, the one pipelined region over 38 grid points, the closing
  reshape.  At each point the body loads its input block `[2, 76, 16, 255]` and the four rows of the constant table whole,
  and stores its output block `[16, 152, 255]` whole, so what the output's staging buffer holds after the body is one
  function `bodyOut` of the grid point and the two input blocks; the arrays the region finds are the host prefix's
  fold `entry`; the two argument arrays are written by no operation and end as launched.  Stated at any float
  instance `F`.
-/
import proofs.«131963_g56642028700200_fold_wed_c4_437_7_alg».proof.Proof.Gen.Kernel.Launch
import proofs.«131963_g56642028700200_fold_wed_c4_437_7_alg».proof.Proof.Gen.Kernel.Skeleton
import proofs.«131963_g56642028700200_fold_wed_c4_437_7_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three stretches of host
    operations before it (the constant tables and the transposed input; the floor division; the table's rows). -/
abbrev entry0 (c : Dev nD) : Valuation τ sig (Elt F) :=
  StableHlo.after (List.flatten [hostOps0, hostOps0_1, hostOps0_2]) (fun b => m (c, b))
/-- The same read at a TensorCore reference. -/
abbrev entry (c : Dev nD) (b : Ref sig .tc) : Buf (Elt F) ((c : Thread nD τ).loc b) := entry0 m c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The body's accesses and what it leaves -/

/-- The input block, whole. -/
abbrev rIn : Rect S2x76x16x255 := Rect.unit (s := S2x76x16x255) ![0, 0, 0, 0] S2x76x16x255.size Gen.inb_S2x76x16x255_S2x76x16x255_0_0_0_0
/-- Row `k` of the constant table. -/
abbrev rRow0 : Rect S4x255 := Rect.unit (s := S4x255) ![0, 0] S1x255.size Gen.inb_S4x255_S1x255_0_0
abbrev rRow1 : Rect S4x255 := Rect.unit (s := S4x255) ![1, 0] S1x255.size Gen.inb_S4x255_S1x255_1_0
abbrev rRow2 : Rect S4x255 := Rect.unit (s := S4x255) ![2, 0] S1x255.size Gen.inb_S4x255_S1x255_2_0
abbrev rRow3 : Rect S4x255 := Rect.unit (s := S4x255) ![3, 0] S1x255.size Gen.inb_S4x255_S1x255_3_0
/-- The output block, whole. -/
abbrev rOut : Rect S16x152x255 := Rect.unit (s := S16x152x255) ![0, 0, 0] S16x152x255.size Gen.inb_S16x152x255_S16x152x255_0_0_0

/-- The output window's staging buffer after the body at grid coordinates `i`, from the two input windows' blocks: its
    one store, of the body's arithmetic over the five loads. -/
def bodyOut (i : grid0.Coords) (x0 : Vec F S2x76x16x255 .f32) (x1 : Vec F S4x255 .f32) : Vec F S16x152x255 .f32 :=
  View.canon [⟨rOut, k0_pay1 i (View.ld x0 rIn) (View.ld x1 rRow0) (View.ld x1 rRow1) (View.ld x1 rRow2) (View.ld x1 rRow3)⟩]

/-! ## The pipeline's proof data -/

/-- The arrays as the region finds them; after the body at point `t` each input's buffer at its block and the output's at
    `bodyOut` of the input blocks; the invariant the scoped rest and the generator register; nothing owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => bodyOut (grid0.coords t) (blockAt m c 0 t) (blockAt m c 1 t)
  Φ _ := Pipeline.ΦA spec0 c
  q _ := fullShare
  owed _ := 0

theorem A_eq (c : Dev nD) (w : Fin cfg0.W) : (pdata m 0 c).A w = entry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_out (c : Dev nD) (t : Fin cfg0.N) :
    (pdata m 0 c).after 2 t = bodyOut (grid0.coords t) (blockAt m c 0 t) (blockAt m c 1 t) := by dsimp only [pdata]

/-! ## The host operations around the region -/

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its three stretches of host operations (the tables and the transposed input; the floor division; the
    table's rows stacked), the region, and the closing reshape: it reduces to the region entered at `entry` and
    continued by the reshape. -/
theorem main_around (𝒱₀ : Variants) : Pipeline.HMainK (Ix := Unit) (Name := ℕ) (U := UR sig nD τ) (Lvl := ℕ) cfgs 0 defs₀ 𝒱₀ m
      (main (F := F)) (entry m) (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The reshape touches the pipeline's arrays and the buffers that bypass the region only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes its own result only, which is no array of the pipeline (the transposed input, the table, the result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are written by no host operation -/

/-- Every operation of a literal list writes one buffer, and it is not the named one: the list's `writes` read off, one
    inequality of references per operation. -/
local macro "none_writes" : tactic => `(tactic| (
  simp only [hostOps0, hostOps0_1, hostOps0_2, hostOps1, List.flatten_cons, List.flatten_nil, List.append_nil, List.cons_append,
    List.nil_append, List.Forall, StableHlo.TRef.unary, StableHlo.TRef.binary, StableHlo.TRef.nullary, StableHlo.TRef.ternary,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by none_writes))
theorem entry_arg1 (c : Dev nD) : entry m c main_arg1 = m ((c : Thread nD τ).loc main_arg1) :=
  StableHlo.after_of_forall_not_mem (b := Proc.devRef .tc main_arg1) _ _ (List.forall_iff_forall_mem.mp (by none_writes))

theorem tail_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by none_writes)),
    Pipeline.withArrays_of_ne _ c (entry0 m c) _ main_arg0 (by exact (by decide : ∀ w, Pipeline.arrRef spec0 w ≠ main_arg0))]
  exact entry_arg0 m c
theorem tail_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by none_writes)),
    Pipeline.withArrays_of_ne _ c (entry0 m c) _ main_arg1 (by exact (by decide : ∀ w, Pipeline.arrRef spec0 w ≠ main_arg1))]
  exact entry_arg1 m c

/-! ## Each input's staging buffer holds its block -/

/-- The input block's staging buffer holds the block of the transposed input at every point: it is fetched at every
    point, the window is uncut and never idle. Stated for any proof data over `entry`'s arrays whose body leaves the
    block in place. -/
theorem staged_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
/-- The constant table's staging buffer holds the table at every point: fetched at the first point only, and at a
    later point its block index (constant) has not moved, so the buffer still holds what the body left, the block. -/
theorem staged_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

theorem before_in0 (c : Dev nD) (t : Fin cfg0.N) (d) : (pdata m 0 c).before 0 t d = blockAt m c 0 t :=
  staged_in0 m (pdata m 0 c) (A_eq m c 0) (after_in0 m c) t d
theorem before_in1 (c : Dev nD) (t : Fin cfg0.N) (d) : (pdata m 0 c).before 1 t d = blockAt m c 1 t :=
  staged_in1 m (pdata m 0 c) (A_eq m c 1) (after_in1 m c) t d

/-! ## The body's triple -/

/-- The one store is of the whole output block: every index of `[16, 152, 255]` lies in it. -/
theorem cover_out (p : Vec F S16x152x255 .f32) (y : S16x152x255.Idx) :
    ∃ pc ∈ ([⟨rOut, p⟩] : List (View.Piece (Elt F) S16x152x255 .f32)), y ∈ pc.1.set :=
  View.cover_of_tiled [⟨rOut, p⟩] S16x152x255.size (by rfl) y

set_option maxHeartbeats 1000000 in
/-- The body at grid coordinates `i` on whole staging memrefs, the inputs' at contents `x0`, `x1` and the output's at
    anything, runs to the continuation holding the inputs' as they were and the output's at `bodyOut i x0 x1`: five loads
    of the inputs, a load of the output's unknown contents that nothing reads, and the covering store. -/
theorem body_triple (c : Dev nD) (E : Set ℕ) (i : grid0.Coords)
    (arg1 : Memref sig .tc .vmem S2x76x16x255 .f32) (harg1 : arg1.IsWhole) (arg2 : Memref sig .tc .vmem S4x255 .f32) (harg2 : arg2.IsWhole)
    (arg3 : Memref sig .tc .vmem S16x152x255 .f32) (harg3 : arg3.IsWhole)
    (x0 : Vec F S2x76x16x255 .f32) (x1 : Vec F S4x255 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (bodyOut i x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is called with at point `t`: the invariant, the core's dues, and each window's current staging memref
    whole at what the proof data says it holds before the body, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns: the same with each memref at what the proof data says the body leaves. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the inputs' memrefs hold their blocks, the output's anything, so the triple applies at the
    point's coordinates; the invariant and the dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (pdata m 0 c).Φ t.succ = (pdata m 0 c).Φ t.castSucc from rfl,
    show (pdata m 0 c).owesAt () t.succ = (pdata m 0 c).owesAt () t.castSucc from rfl,
    after_in0, after_in1, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has every array of the pipeline at what the
    proof data's write-backs give and every other unscoped buffer as the closing reshape leaves it. -/
theorem run_main : θ_run defs (onTc (τ := τ) (main (F := F))) (s₀ m ρ)
    (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hΦ := fun _ _ => rfl)

/-- The program runs, faults nowhere, and leaves both arguments as launched: neither is an array of the pipeline, so each
    ends as the closing reshape leaves it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m (pdata m) c),
      ((h c).2 main_arg1 (Pipeline.mem_restRefs_of main_arg1 (by decide) (by decide))).trans (tail_arg1 m (pdata m) c)⟩)
    (run_main m ρ)

end Cert.Kernel.Decode

end
-- ==== Proof.KFrameIdeal.lean ====
/-
  The kernel's program runs to the end: its host operations, the one pipelined region over 38 grid points, the closing
  reshape.  At each point the body loads its input block `[2, 76, 16, 255]` and the four rows of the constant table whole,
  and stores its output block `[16, 152, 255]` whole, so what the output's staging buffer holds after the body is one
  function `bodyOut` of the grid point and the two input blocks; the arrays the region finds are the host prefix's
  fold `entry`; the two argument arrays are written by no operation and end as launched.  Stated at any float
  instance `F`.
-/
import proofs.«131963_g56642028700200_fold_wed_c4_437_7_alg».proof.Proof.Gen.KernelIdeal.Launch
import proofs.«131963_g56642028700200_fold_wed_c4_437_7_alg».proof.Proof.Gen.KernelIdeal.Skeleton
import proofs.«131963_g56642028700200_fold_wed_c4_437_7_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three stretches of host
    operations before it (the constant tables and the transposed input; the floor division; the table's rows). -/
abbrev entry0 (c : Dev nD) : Valuation τ sig (Elt F) :=
  StableHlo.after (List.flatten [hostOps0, hostOps0_1, hostOps0_2]) (fun b => m (c, b))
/-- The same read at a TensorCore reference. -/
abbrev entry (c : Dev nD) (b : Ref sig .tc) : Buf (Elt F) ((c : Thread nD τ).loc b) := entry0 m c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The body's accesses and what it leaves -/

/-- The input block, whole. -/
abbrev rIn : Rect S2x76x16x255 := Rect.unit (s := S2x76x16x255) ![0, 0, 0, 0] S2x76x16x255.size Gen.inb_S2x76x16x255_S2x76x16x255_0_0_0_0
/-- Row `k` of the constant table. -/
abbrev rRow0 : Rect S4x255 := Rect.unit (s := S4x255) ![0, 0] S1x255.size Gen.inb_S4x255_S1x255_0_0
abbrev rRow1 : Rect S4x255 := Rect.unit (s := S4x255) ![1, 0] S1x255.size Gen.inb_S4x255_S1x255_1_0
abbrev rRow2 : Rect S4x255 := Rect.unit (s := S4x255) ![2, 0] S1x255.size Gen.inb_S4x255_S1x255_2_0
abbrev rRow3 : Rect S4x255 := Rect.unit (s := S4x255) ![3, 0] S1x255.size Gen.inb_S4x255_S1x255_3_0
/-- The output block, whole. -/
abbrev rOut : Rect S16x152x255 := Rect.unit (s := S16x152x255) ![0, 0, 0] S16x152x255.size Gen.inb_S16x152x255_S16x152x255_0_0_0

/-- The output window's staging buffer after the body at grid coordinates `i`, from the two input windows' blocks: its
    one store, of the body's arithmetic over the five loads. -/
def bodyOut (i : grid0.Coords) (x0 : Vec F S2x76x16x255 .f32) (x1 : Vec F S4x255 .f32) : Vec F S16x152x255 .f32 :=
  View.canon [⟨rOut, k0_pay1 i (View.ld x0 rIn) (View.ld x1 rRow0) (View.ld x1 rRow1) (View.ld x1 rRow2) (View.ld x1 rRow3)⟩]

/-! ## The pipeline's proof data -/

/-- The arrays as the region finds them; after the body at point `t` each input's buffer at its block and the output's at
    `bodyOut` of the input blocks; the invariant the scoped rest and the generator register; nothing owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => bodyOut (grid0.coords t) (blockAt m c 0 t) (blockAt m c 1 t)
  Φ _ := Pipeline.ΦA spec0 c
  q _ := fullShare
  owed _ := 0

theorem A_eq (c : Dev nD) (w : Fin cfg0.W) : (pdata m 0 c).A w = entry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_out (c : Dev nD) (t : Fin cfg0.N) :
    (pdata m 0 c).after 2 t = bodyOut (grid0.coords t) (blockAt m c 0 t) (blockAt m c 1 t) := by dsimp only [pdata]

/-! ## The host operations around the region -/

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its three stretches of host operations (the tables and the transposed input; the floor division; the
    table's rows stacked), the region, and the closing reshape: it reduces to the region entered at `entry` and
    continued by the reshape. -/
theorem main_around (𝒱₀ : Variants) : Pipeline.HMainK (Ix := Unit) (Name := ℕ) (U := UR sig nD τ) (Lvl := ℕ) cfgs 0 defs₀ 𝒱₀ m
      (main (F := F)) (entry m) (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The reshape touches the pipeline's arrays and the buffers that bypass the region only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes its own result only, which is no array of the pipeline (the transposed input, the table, the result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are written by no host operation -/

/-- Every operation of a literal list writes one buffer, and it is not the named one: the list's `writes` read off, one
    inequality of references per operation. -/
local macro "none_writes" : tactic => `(tactic| (
  simp only [hostOps0, hostOps0_1, hostOps0_2, hostOps1, List.flatten_cons, List.flatten_nil, List.append_nil, List.cons_append,
    List.nil_append, List.Forall, StableHlo.TRef.unary, StableHlo.TRef.binary, StableHlo.TRef.nullary, StableHlo.TRef.ternary,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by none_writes))
theorem entry_arg1 (c : Dev nD) : entry m c main_arg1 = m ((c : Thread nD τ).loc main_arg1) :=
  StableHlo.after_of_forall_not_mem (b := Proc.devRef .tc main_arg1) _ _ (List.forall_iff_forall_mem.mp (by none_writes))

theorem tail_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by none_writes)),
    Pipeline.withArrays_of_ne _ c (entry0 m c) _ main_arg0 (by exact (by decide : ∀ w, Pipeline.arrRef spec0 w ≠ main_arg0))]
  exact entry_arg0 m c
theorem tail_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by none_writes)),
    Pipeline.withArrays_of_ne _ c (entry0 m c) _ main_arg1 (by exact (by decide : ∀ w, Pipeline.arrRef spec0 w ≠ main_arg1))]
  exact entry_arg1 m c

/-! ## Each input's staging buffer holds its block -/

/-- The input block's staging buffer holds the block of the transposed input at every point: it is fetched at every
    point, the window is uncut and never idle. Stated for any proof data over `entry`'s arrays whose body leaves the
    block in place. -/
theorem staged_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
/-- The constant table's staging buffer holds the table at every point: fetched at the first point only, and at a
    later point its block index (constant) has not moved, so the buffer still holds what the body left, the block. -/
theorem staged_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

theorem before_in0 (c : Dev nD) (t : Fin cfg0.N) (d) : (pdata m 0 c).before 0 t d = blockAt m c 0 t :=
  staged_in0 m (pdata m 0 c) (A_eq m c 0) (after_in0 m c) t d
theorem before_in1 (c : Dev nD) (t : Fin cfg0.N) (d) : (pdata m 0 c).before 1 t d = blockAt m c 1 t :=
  staged_in1 m (pdata m 0 c) (A_eq m c 1) (after_in1 m c) t d

/-! ## The body's triple -/

/-- The one store is of the whole output block: every index of `[16, 152, 255]` lies in it. -/
theorem cover_out (p : Vec F S16x152x255 .f32) (y : S16x152x255.Idx) :
    ∃ pc ∈ ([⟨rOut, p⟩] : List (View.Piece (Elt F) S16x152x255 .f32)), y ∈ pc.1.set :=
  View.cover_of_tiled [⟨rOut, p⟩] S16x152x255.size (by rfl) y

set_option maxHeartbeats 1000000 in
/-- The body at grid coordinates `i` on whole staging memrefs, the inputs' at contents `x0`, `x1` and the output's at
    anything, runs to the continuation holding the inputs' as they were and the output's at `bodyOut i x0 x1`: five loads
    of the inputs, a load of the output's unknown contents that nothing reads, and the covering store. -/
theorem body_triple (c : Dev nD) (E : Set ℕ) (i : grid0.Coords)
    (arg1 : Memref sig .tc .vmem S2x76x16x255 .f32) (harg1 : arg1.IsWhole) (arg2 : Memref sig .tc .vmem S4x255 .f32) (harg2 : arg2.IsWhole)
    (arg3 : Memref sig .tc .vmem S16x152x255 .f32) (harg3 : arg3.IsWhole)
    (x0 : Vec F S2x76x16x255 .f32) (x1 : Vec F S4x255 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (bodyOut i x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is called with at point `t`: the invariant, the core's dues, and each window's current staging memref
    whole at what the proof data says it holds before the body, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns: the same with each memref at what the proof data says the body leaves. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the inputs' memrefs hold their blocks, the output's anything, so the triple applies at the
    point's coordinates; the invariant and the dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (pdata m 0 c).Φ t.succ = (pdata m 0 c).Φ t.castSucc from rfl,
    show (pdata m 0 c).owesAt () t.succ = (pdata m 0 c).owesAt () t.castSucc from rfl,
    after_in0, after_in1, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has every array of the pipeline at what the
    proof data's write-backs give and every other unscoped buffer as the closing reshape leaves it. -/
theorem run_main : θ_run defs (onTc (τ := τ) (main (F := F))) (s₀ m ρ)
    (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hΦ := fun _ _ => rfl)

/-- The program runs, faults nowhere, and leaves both arguments as launched: neither is an array of the pipeline, so each
    ends as the closing reshape leaves it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m (pdata m) c),
      ((h c).2 main_arg1 (Pipeline.mem_restRefs_of main_arg1 (by decide) (by decide))).trans (tail_arg1 m (pdata m) c)⟩)
    (run_main m ρ)

end Cert.KernelIdeal.Decode

end
-- ==== Proof.Spec.lean ====
/-
  The mathematics both programs are compared through.

  The program decodes YOLO boxes: the input `x[b, a*85+t, gy, gx]` (16 images, 3 anchors of 85 attributes, a 76×76 grid)
  gives the output `out[b, (gy*76+gx)*3 + a, t]`.  With `S` the stride `input_dim // 76` read as a real,
  `σ v = 1 / (1 + e^(-v))`:
    t = 0 : (σ v + gx) · S          t = 1 : (σ v + gy) · S
    t = 2 : e^v · anchor_w[a]       t = 3 : e^v · anchor_h[a]          t ≥ 4 : σ v.
  The kernel computes every channel by ONE formula over per-channel tables (`kval`); the reference slices the
  attribute axis into pieces and divides the anchors by `S` before multiplying by `S` again (`rval`).  This module
  states both forms index by index over an output index's coordinates; that they agree on finite inputs with `S ≠ 0`
  is proved in the algebra module.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-- The input's shape, the output's, and the scalar's. -/
abbrev SX : Shape := ⟨4, ![16, 255, 76, 76]⟩
abbrev SOut : Shape := ⟨3, ![16, 17328, 85]⟩
abbrev SS : Shape := ⟨0, ![]⟩

/-- `input_dim // 76` on the 32-bit word: the quotient truncated toward zero, less one where the signs differ and
    the division is inexact.  The kernel's program, the reference and the precondition all spell it so. -/
def strideWord (d : IVec SS 32) : IVec SS 32 :=
  select
    (andi (cmpi .ne (signi d) (signi (constantI SS 32 76#32)))
      (cmpi .ne (Host.remsi d (constantI SS 32 76#32)) (constantI SS 32 0#32)))
    (subi (Host.divsi d (constantI SS 32 76#32)) (constantI SS 32 1#32))
    (Host.divsi d (constantI SS 32 76#32))

/-- The stride as an extended real: that word read signed, exactly. -/
def stride (d : IVec SS 32) : EReal := (((strideWord d ix0).toInt : ℝ) : EReal)

/-- The float words `1.0` and `0.0`, as both programs carry them. -/
abbrev one : EReal := Ideal.ofBits .f32 0x3F800000#32
abbrev zero : EReal := Ideal.ofBits .f32 0x00000000#32

theorem idx_lt0 (j : SOut.Idx) : (j 0).val < 16 := (j 0).isLt
theorem idx_lt1 (j : SOut.Idx) : (j 1).val < 17328 := (j 1).isLt
theorem idx_lt2 (j : SOut.Idx) : (j 2).val < 85 := (j 2).isLt

/-! ## An output index's coordinates: image, grid row and column, anchor, attribute, input channel -/

def oB (j : SOut.Idx) : Fin 16 := ⟨(j 0).val, idx_lt0 j⟩
def oGy (j : SOut.Idx) : Fin 76 := ⟨(j 1).val / 3 / 76, by have := idx_lt1 j; omega⟩
def oGx (j : SOut.Idx) : Fin 76 := ⟨(j 1).val / 3 % 76, Nat.mod_lt _ (by decide)⟩
def oA (j : SOut.Idx) : Fin 3 := ⟨(j 1).val % 3, Nat.mod_lt _ (by decide)⟩
def oT (j : SOut.Idx) : Fin 85 := ⟨(j 2).val, idx_lt2 j⟩
def oC (j : SOut.Idx) : Fin 255 := ⟨(j 1).val % 3 * 85 + (j 2).val, by have := idx_lt2 j; have := Nat.mod_lt (j 1).val (by decide : 0 < 3); omega⟩

/-- The input element an output element is computed from. -/
def xAt (x : SX.Idx → EReal) (j : SOut.Idx) : EReal := x (ix4 (oB j) (oC j) (oGy j) (oGx j))

/-- The grid column and row as reals. -/
def fGx (j : SOut.Idx) : EReal := ((((oGx j).val : ℕ) : ℝ) : EReal)
def fGy (j : SOut.Idx) : EReal := ((((oGy j).val : ℕ) : ℝ) : EReal)

/-! ## The kernel's form -/

/-- One element of the kernel's block from the four rows of its constant table: `v` the input element, `rm` the
    channel's multiplier, `ie` its uses-exp flag, `cx cy` its x and y offset scales, `fx fy` the grid column and row:
    `((σ v + ie·(e^v − σ v)) · rm + cx·fx) + cy·fy`. -/
def kpt (v rm ie cx cy fx fy : EReal) : EReal :=
  ((Ideal.logistic v + ie * (Ideal.exp v - Ideal.logistic v)) * rm + cx * fx) + cy * fy

/-- One channel of the kernel: `v` the input element, `S` the stride, `t0 … t4` the channel's entries of the five
    constant tables (is-x-or-y, anchor multiplier, uses-exp, is-x, is-y), `fx fy` the grid column and row.
    `((σ v + t2·(e^v − σ v)) · (t1·(1 − t0) + S·t0) + (t3·S)·fx) + (t4·S)·fy`. -/
def kval (v S t0 t1 t2 t3 t4 fx fy : EReal) : EReal :=
  kpt v (t1 * (one - t0) + S * t0) t2 (t3 * S) (t4 * S) fx fy

/-- The kernel's result array over the tables' entries. -/
def outK (T0 T1 T2 T3 T4 : Fin 255 → EReal) (x : SX.Idx → EReal) (d : IVec SS 32) : SOut.Idx → EReal := fun j =>
  kval (xAt x j) (stride d) (T0 (oC j)) (T1 (oC j)) (T2 (oC j)) (T3 (oC j)) (T4 (oC j)) (fGx j) (fGy j)

/-! ## The reference's form -/

/-- The sigmoid as the host spells it: `1 / (1 + e^(−v))`. -/
def sigH (v : EReal) : EReal := Ideal.div one (one + Ideal.exp (-v))

/-- One element of the reference, by attribute `t`: the x and y offsets `((σ v · 1 − 0) + f) · S`, the box sizes
    `(e^v · (A a (t−2) / S)) · S` over the anchor table `A`, the rest `σ v`. -/
def rval (A : Fin 3 → Fin 2 → EReal) (v S fx fy : EReal) (a : Fin 3) (t : Fin 85) : EReal :=
  if t.val = 0 then ((sigH v * one - zero) + fx) * S
  else if t.val = 1 then ((sigH v * one - zero) + fy) * S
  else if h : t.val < 4 then (Ideal.exp v * Ideal.div (A a ⟨t.val - 2, by omega⟩) S) * S
  else sigH v

/-- The reference's result array over its anchor table. -/
def outR (A : Fin 3 → Fin 2 → EReal) (x : SX.Idx → EReal) (d : IVec SS 32) : SOut.Idx → EReal := fun j =>
  rval A (xAt x j) (stride d) (fGx j) (fGy j) (oA j) (oT j)

end Cert.Spec

end
-- ==== Proof.KPayload.lean ====
/-
  The kernel body's arithmetic, read at one index.

  From the input block `v[p, q, b, c]` (two grid rows `p`, 76 grid columns `q`, 16 images `b`, 255 channels `c`)
  and the four rows `rm ie cx cy` of the constant table the body forms
      ((σ v + ie[c]·(e^v − σ v)) · rm[c] + cx[c]·q) + cy[c]·(2·i + p),
  `i` the grid step, then moves the image axis to the front and merges the two row axes, so that the element lands at
  `[b, p·76 + q, c]`.  Here that stored value is read at `[b, p·76 + q, c]`: one small lemma for each operation that moves
  indices (the merge of the row axes, the permutation, the view of a table row as a rank-4 array and the seven
  broadcasts, the two iotas), the signed readings of the column's and the row's word, and the statement.
-/
import proofs.«131963_g56642028700200_fold_wed_c4_437_7_alg».proof.Proof.Gen.KernelIdeal.Skeleton
import proofs.«131963_g56642028700200_fold_wed_c4_437_7_alg».proof.Proof.Spec
import Idealize.ShloMosaic.Lib.ValueLayout
import Idealize.ShloMosaic.Lib.WordArith

noncomputable section

namespace Cert.KernelIdeal.Decode

open Cert.KernelIdeal Cert.KernelIdeal.Gen Idealize.ShloMosaic Idealize.ShloMosaic.ValueIdx

variable {α : Type}

/-! ## The two operations that place the block: the merge of the row axes and the permutation -/

/-- `[16, 2, 76, 255]` viewed `[16, 152, 255]`: row `p·76 + q` of image `b` is the element `(b, p, q)`. -/
theorem mergeRows_apply (x : S16x2x76x255.Idx → α) (h : S16x2x76x255.ShapeCasts S16x152x255)
    (b : Fin 16) (p : Fin 2) (q : Fin 76) (c : Fin 255) :
    shapeCast S16x152x255 x h
        (ix3 b (⟨p.val * 76 + q.val, by have := p.isLt; have := q.isLt; omega⟩ : Fin 152) c) = x (ix4 b p q c) :=
  shapeCast_apply x h _ _ (by
    rw [Shape.rowMajor_val_four, Shape.rowMajor_val_three]
    show ((b.val * 2 + p.val) * 76 + q.val) * 255 + c.val = (b.val * 152 + (p.val * 76 + q.val)) * 255 + c.val
    omega)

/-- The permutation `[2, 0, 1, 3]` brings the image axis to the front: `(b, p, q, c)` reads `(p, q, b, c)`. -/
theorem imagesFirst_apply (x : S2x76x16x255.Idx → α) (h : S2x76x16x255.Transposes [2, 0, 1, 3] S16x2x76x255)
    (b : Fin 16) (p : Fin 2) (q : Fin 76) (c : Fin 255) :
    transpose S16x2x76x255 [2, 0, 1, 3] x h (ix4 b p q c) = x (ix4 p q b c) :=
  transpose_apply _ x h _ _ fun a => match a with
    | ⟨0, _⟩ => rfl | ⟨1, _⟩ => rfl | ⟨2, _⟩ => rfl | ⟨3, _⟩ => rfl

/-! ## A row of the constant table carried to the block's shape -/

/-- A table row `[1, 255]` viewed `[1, 1, 1, 255]` reads its channel. -/
theorem rowView_apply (x : S1x255.Idx → α) (h : S1x255.ShapeCasts S1x1x1x255) (u0 u1 u2 : Fin 1) (c : Fin 255) :
    shapeCast S1x1x1x255 x h (ix4 u0 u1 u2 c) = x (ix2 (0 : Fin 1) c) :=
  shapeCast_apply x h _ _ (by
    have h0 := u0.isLt
    have h1 := u1.isLt
    have h2 := u2.isLt
    rw [Shape.rowMajor_val_two, Shape.rowMajor_val_four]
    show 0 * 255 + c.val = ((u0.val * 1 + u1.val) * 1 + u2.val) * 255 + c.val
    omega)

/-- A channel row spread over the whole block `[2, 76, 16, 255]`. -/
theorem chanToBlock_apply (x : S1x1x1x255.Idx → α) (h : S1x1x1x255.Broadcasts S2x76x16x255)
    (p : Fin 2) (q : Fin 76) (b : Fin 16) (c : Fin 255) :
    broadcastTo S2x76x16x255 x h (ix4 p q b c) = x (ix4 (0 : Fin 1) (0 : Fin 1) (0 : Fin 1) c) :=
  broadcastTo_apply x h _ _ fun a => match a with
    | ⟨0, _⟩ => rfl | ⟨1, _⟩ => rfl | ⟨2, _⟩ => rfl | ⟨3, _⟩ => rfl

/-- A channel row spread over the grid columns `[1, 76, 1, 255]`. -/
theorem chanToCols_apply (x : S1x1x1x255.Idx → α) (h : S1x1x1x255.Broadcasts S1x76x1x255)
    (u0 : Fin 1) (q : Fin 76) (u2 : Fin 1) (c : Fin 255) :
    broadcastTo S1x76x1x255 x h (ix4 u0 q u2 c) = x (ix4 (0 : Fin 1) (0 : Fin 1) (0 : Fin 1) c) :=
  broadcastTo_apply x h _ _ fun a => match a with
    | ⟨0, _⟩ => rfl | ⟨1, _⟩ => rfl | ⟨2, _⟩ => rfl | ⟨3, _⟩ => rfl

/-- The grid columns' numbers `[1, 76, 1, 1]` spread over the channels. -/
theorem colsToChans_apply (x : S1x76x1x1.Idx → α) (h : S1x76x1x1.Broadcasts S1x76x1x255)
    (u0 : Fin 1) (q : Fin 76) (u2 : Fin 1) (c : Fin 255) :
    broadcastTo S1x76x1x255 x h (ix4 u0 q u2 c) = x (ix4 (0 : Fin 1) q (0 : Fin 1) (0 : Fin 1)) :=
  broadcastTo_apply x h _ _ fun a => match a with
    | ⟨0, _⟩ => rfl | ⟨1, _⟩ => rfl | ⟨2, _⟩ => rfl | ⟨3, _⟩ => rfl

/-- A columns-by-channels array `[1, 76, 1, 255]` spread over the grid rows and the images. -/
theorem colsToBlock_apply (x : S1x76x1x255.Idx → α) (h : S1x76x1x255.Broadcasts S2x76x16x255)
    (p : Fin 2) (q : Fin 76) (b : Fin 16) (c : Fin 255) :
    broadcastTo S2x76x16x255 x h (ix4 p q b c) = x (ix4 (0 : Fin 1) q (0 : Fin 1) c) :=
  broadcastTo_apply x h _ _ fun a => match a with
    | ⟨0, _⟩ => rfl | ⟨1, _⟩ => rfl | ⟨2, _⟩ => rfl | ⟨3, _⟩ => rfl

/-- A channel row spread over the two grid rows `[2, 1, 1, 255]`. -/
theorem chanToRows_apply (x : S1x1x1x255.Idx → α) (h : S1x1x1x255.Broadcasts S2x1x1x255)
    (p : Fin 2) (u1 u2 : Fin 1) (c : Fin 255) :
    broadcastTo S2x1x1x255 x h (ix4 p u1 u2 c) = x (ix4 (0 : Fin 1) (0 : Fin 1) (0 : Fin 1) c) :=
  broadcastTo_apply x h _ _ fun a => match a with
    | ⟨0, _⟩ => rfl | ⟨1, _⟩ => rfl | ⟨2, _⟩ => rfl | ⟨3, _⟩ => rfl

/-- The two grid rows' numbers `[2, 1, 1, 1]` spread over the channels. -/
theorem rowsToChans_apply (x : S2x1x1x1.Idx → α) (h : S2x1x1x1.Broadcasts S2x1x1x255)
    (p : Fin 2) (u1 u2 : Fin 1) (c : Fin 255) :
    broadcastTo S2x1x1x255 x h (ix4 p u1 u2 c) = x (ix4 p (0 : Fin 1) (0 : Fin 1) (0 : Fin 1)) :=
  broadcastTo_apply x h _ _ fun a => match a with
    | ⟨0, _⟩ => rfl | ⟨1, _⟩ => rfl | ⟨2, _⟩ => rfl | ⟨3, _⟩ => rfl

/-- A rows-by-channels array `[2, 1, 1, 255]` spread over the grid columns and the images. -/
theorem rowsToBlock_apply (x : S2x1x1x255.Idx → α) (h : S2x1x1x255.Broadcasts S2x76x16x255)
    (p : Fin 2) (q : Fin 76) (b : Fin 16) (c : Fin 255) :
    broadcastTo S2x76x16x255 x h (ix4 p q b c) = x (ix4 p (0 : Fin 1) (0 : Fin 1) c) :=
  broadcastTo_apply x h _ _ fun a => match a with
    | ⟨0, _⟩ => rfl | ⟨1, _⟩ => rfl | ⟨2, _⟩ => rfl | ⟨3, _⟩ => rfl

/-! ## The grid column and the grid row as words, and as reals -/

/-- The iota along the columns reads the column. -/
theorem colIota_apply (h : S1x76x1x1.Iotas .tc 32 [1]) (u0 : Fin 1) (q : Fin 76) (u2 u3 : Fin 1) :
    iota .tc S1x76x1x1 32 [1] h (ix4 u0 q u2 u3) = BitVec.ofNat 32 q.val :=
  iota_single_apply .tc S1x76x1x1 32 1 h _

/-- The iota along the block's two rows reads the row within the block. -/
theorem rowIota_apply (h : S2x1x1x1.Iotas .tc 32 [0]) (p : Fin 2) (u1 u2 u3 : Fin 1) :
    iota .tc S2x1x1x1 32 [0] h (ix4 p u1 u2 u3) = BitVec.ofNat 32 p.val :=
  iota_single_apply .tc S2x1x1x1 32 0 h _

/-- A sum of integer vectors at an index is the words' sum. -/
theorem addi_at {s : Shape} (x y : IVec s 32) (j : s.Idx) : addi x y j = IntOp.addi (x j) (y j) := rfl

/-- A word converted to a float is, as an extended real, the word read signed. -/
theorem sitofp_at {s : Shape} (x : IVec s 32) (j : s.Idx) :
    (sitofp .f32 x : FVec Ideal s .f32) j = (((x j).toInt : ℝ) : EReal) := rfl

/-- The sigmoid of a vector at an index. -/
theorem logistic_at {s : Shape} (x : FVec Ideal s .f32) (j : s.Idx) : logistic x j = Ideal.logistic (x j) := rfl

/-- The exponential of a vector at an index. -/
theorem exp_at {s : Shape} (x : FVec Ideal s .f32) (j : s.Idx) : exp x j = Ideal.exp (x j) := rfl

/-- The column's word read signed is the column: `q < 76`. -/
theorem colWord_toInt (q : Fin 76) : (BitVec.ofNat 32 q.val).toInt = ((q.val : ℕ) : ℤ) :=
  WordArith.toInt_ofNat_small q.val (by have := q.isLt; omega)

/-- The row's word `2·i + p`, formed on 32 bits from the grid step `i < 38`, read signed is that number: nothing
    wraps. -/
theorem rowWord_toInt (n : ℕ) (hn : n < 38) (p : Fin 2) :
    (IntOp.addi (Scalar.muli (BitVec.ofNat 32 n) 2#32) (BitVec.ofNat 32 p.val)).toInt = ((n * 2 + p.val : ℕ) : ℤ) := by
  have e : IntOp.addi (Scalar.muli (BitVec.ofNat 32 n) 2#32) (BitVec.ofNat 32 p.val)
      = BitVec.ofNat 32 (n * 2 + p.val) := by
    show BitVec.ofNat 32 n * BitVec.ofNat 32 2 + BitVec.ofNat 32 p.val = _
    rw [BitVec.ofNat_add, BitVec.ofNat_mul]
  rw [e]
  exact WordArith.toInt_ofNat_small _ (by have := p.isLt; omega)

/-! ## The stored value at `[b, p·76 + q, c]` -/

/-- THE BODY'S VALUE AT AN INDEX: the kernel's per-point form of the input element `(p, q, b, c)`, the channel's four
    table entries, the column `q` and the row `2·i + p`. -/
theorem pay_apply (i : grid0.Coords) (v1 : Vec Ideal S2x76x16x255 .f32) (v5 v8 v11 v14 : Vec Ideal S1x255 .f32)
    (b : Fin 16) (p : Fin 2) (q : Fin 76) (c : Fin 255) :
    k0_pay1 (F := Ideal) i v1 v5 v8 v11 v14
        (ix3 b (⟨p.val * 76 + q.val, by have := p.isLt; have := q.isLt; omega⟩ : Fin 152) c)
      = Cert.Spec.kpt (v1 (ix4 p q b c)) (v5 (ix2 (0 : Fin 1) c)) (v8 (ix2 (0 : Fin 1) c)) (v11 (ix2 (0 : Fin 1) c))
          (v14 (ix2 (0 : Fin 1) c))
          ((((q.val : ℕ) : ℝ)) : EReal) (((((i 0).val * 2 + p.val : ℕ) : ℝ)) : EReal) := by
  have hi : (i 0).val < 38 := (i 0).isLt
  unfold k0_pay1
  refine (mergeRows_apply _ _ b p q c).trans ?_
  refine (imagesFirst_apply _ _ b p q c).trans ?_
  simp only [addf_apply, mulf_apply, subf_apply, logistic_at, exp_at, shapeCast_self, chanToBlock_apply,
    colsToBlock_apply, rowsToBlock_apply, chanToCols_apply, colsToChans_apply, chanToRows_apply, rowsToChans_apply,
    rowView_apply, sitofp_at, addi_at, broadcast_apply]
  -- what is left of the two iotas, at the column's and the row's index
  have hc := colIota_apply Gen.iota_S1x76x1x1_d1_w32 (0 : Fin 1) q (0 : Fin 1) (0 : Fin 1)
  have hr := rowIota_apply Gen.iota_S2x1x1x1_d0_w32 p (0 : Fin 1) (0 : Fin 1) (0 : Fin 1)
  rw [hc, hr, colWord_toInt q, rowWord_toInt (i 0).val hi p, Int.cast_natCast, Int.cast_natCast]
  rfl

end Cert.KernelIdeal.Decode

end
-- ==== Proof.KHost.lean ====
/-
  What the host operations before the kernel's region leave in the two arrays the region reads, at the ideal
  instance (a float is an extended real).

  The first array is the input transposed by [2, 3, 0, 1]: at (grid row, grid column, image, channel) it holds the
  input at (image, channel, grid row, grid column).  The second is a table of four rows over the 255 channels,
  computed from five constant tables `t0 … t4` and the stride `S = input_dim // 76` read as a real:
    row 0 : t1·(1 − t0) + S·t0      row 1 : t2      row 2 : t3·S      row 3 : t4·S.
  The stride's word is the floor-division chain of the host program, which is `Cert.Spec.strideWord` by unfolding.
  The five facts hold whatever the values of the tables' entries and of the float word of 1.0, which stay symbols.
-/
import proofs.«131963_g56642028700200_fold_wed_c4_437_7_alg».proof.Proof.Spec
import proofs.«131963_g56642028700200_fold_wed_c4_437_7_alg».proof.Proof.Gen.KernelIdeal.Launch
import Idealize.ShloMosaic.Lib.StableHlo.Run
import Idealize.ShloMosaic.Lib.Pipeline.Value
import Idealize.ShloMosaic.Lib.IdealHost
import Idealize.ShloMosaic.Lib.ValueIdx

noncomputable section

namespace Cert.KernelIdeal.Decode

open Cert.KernelIdeal Cert.KernelIdeal.Gen Idealize.ShloMosaic Idealize.ShloMosaic.ValueIdx
open Idealize.ShloMosaic.StableHlo (after_cons after_nil)

/-- The host operations before the region, in order: the constants and the transpose, the floor division, the table. -/
abbrev pre : List (HloOp τ sig (Elt Ideal)) := List.flatten [hostOps0, hostOps0_1, hostOps0_2]

/-! ## The arrays' terms -/

/-- A constant table as an array over the channel axis. -/
abbrev tbl (lit : Fin 255 → BitVec 32) : FVec Ideal S255 .f32 := fun i => FloatOps.ofBits .f32 (lit (S255.rowMajor i))

/-- The stride as a rank-0 float array: the quotient word converted. -/
abbrev strideF (d : IVec S_ 32) : FVec Ideal S_ .f32 := sitofp .f32 (Cert.Spec.strideWord d)

/-- The four rows of the table the region reads, as arrays over the channel axis. -/
abbrev row0 (d : IVec S_ 32) : FVec Ideal S255 .f32 :=
  addf (mulf (tbl lit1) (subf (broadcastInDim S255 ![] bcast_S_S255 (constant (F := Ideal) S_ .f32 0x3F800000#32)) (tbl lit0)))
    (mulf (broadcastInDim S255 ![] bcast_S_S255 (strideF d)) (tbl lit0))
abbrev row2 (d : IVec S_ 32) : FVec Ideal S255 .f32 := mulf (tbl lit3) (broadcastInDim S255 ![] bcast_S_S255 (strideF d))
abbrev row3 (d : IVec S_ 32) : FVec Ideal S255 .f32 := mulf (tbl lit4) (broadcastInDim S255 ![] bcast_S_S255 (strideF d))

/-- A row over the channel axis as a one-row array. -/
abbrev asRow (x : FVec Ideal S255 .f32) : FVec Ideal S1x255 .f32 := broadcastInDim S1x255 ![1] bcast_S255_S1x255_1 x

/-! ## Reading the terms at an index -/

/-- The tables' entries at a channel. -/
abbrev T0 (c : Fin 255) : EReal := Ideal.ofBits .f32 (lit0 c)
abbrev T1 (c : Fin 255) : EReal := Ideal.ofBits .f32 (lit1 c)
abbrev T2 (c : Fin 255) : EReal := Ideal.ofBits .f32 (lit2 c)
abbrev T3 (c : Fin 255) : EReal := Ideal.ofBits .f32 (lit3 c)
abbrev T4 (c : Fin 255) : EReal := Ideal.ofBits .f32 (lit4 c)

/-- The row-major position of a rank-1 index is its coordinate. -/
theorem rowMajor_chan (c : Fin 255) : S255.rowMajor (ix1 c) = c :=
  Fin.ext (Shape.rowMajor_val_one (ix1 c))

/-- A table read at a channel is the table's entry. -/
theorem tbl_apply (lit : Fin 255 → BitVec 32) (c : Fin 255) : tbl lit (ix1 c) = Ideal.ofBits .f32 (lit c) := by
  show Ideal.ofBits .f32 (lit (S255.rowMajor (ix1 c))) = _
  rw [rowMajor_chan]

/-- The stride's float array holds the stride. -/
theorem strideF_apply (d : IVec S_ 32) : strideF d ix0 = Cert.Spec.stride d := rfl

/-- A scalar broadcast over the channel axis reads the scalar. -/
theorem bcastChan_apply (x : FVec Ideal S_ .f32) (c : Fin 255) :
    broadcastInDim S255 ![] bcast_S_S255 x (ix1 c) = x ix0 :=
  broadcastInDim_scalar_apply bcast_S_S255 x (ix1 c)

/-- A row read through its one-row form. -/
theorem asRow_apply (x : FVec Ideal S255 .f32) (c : Fin 255) : asRow x (ix2 (0 : Fin 1) c) = x (ix1 c) :=
  broadcastInDim_apply ![1] bcast_S255_S1x255_1 x (ix2 (0 : Fin 1) c) (ix1 c) (fun a => match a with | ⟨0, _⟩ => rfl)

/-- Row 0 at a channel. -/
theorem row0_apply (d : IVec S_ 32) (c : Fin 255) :
    row0 d (ix1 c) = T1 c * (Cert.Spec.one - T0 c) + Cert.Spec.stride d * T0 c := by
  show tbl lit1 (ix1 c) * (broadcastInDim S255 ![] bcast_S_S255 (constant (F := Ideal) S_ .f32 0x3F800000#32) (ix1 c) - tbl lit0 (ix1 c))
      + broadcastInDim S255 ![] bcast_S_S255 (strideF d) (ix1 c) * tbl lit0 (ix1 c) = _
  rw [tbl_apply, tbl_apply, bcastChan_apply, bcastChan_apply, strideF_apply]
  rfl

/-- Row 2 at a channel. -/
theorem row2_apply (d : IVec S_ 32) (c : Fin 255) : row2 d (ix1 c) = T3 c * Cert.Spec.stride d := by
  show tbl lit3 (ix1 c) * broadcastInDim S255 ![] bcast_S_S255 (strideF d) (ix1 c) = _
  rw [tbl_apply, bcastChan_apply, strideF_apply]

/-- Row 3 at a channel. -/
theorem row3_apply (d : IVec S_ 32) (c : Fin 255) : row3 d (ix1 c) = T4 c * Cert.Spec.stride d := by
  show tbl lit4 (ix1 c) * broadcastInDim S255 ![] bcast_S_S255 (strideF d) (ix1 c) = _
  rw [tbl_apply, bcastChan_apply, strideF_apply]

/-- Four one-row arrays stacked along axis 0, read at row `r`: the `r`-th array at its only row. -/
theorem stack_row0 (x0 x1 x2 x3 : FVec Ideal S1x255 .f32) (c : Fin 255) :
    concatenate S4x255 0 [⟨S1x255, x0⟩, ⟨S1x255, x1⟩, ⟨S1x255, x2⟩, ⟨S1x255, x3⟩]
      concatenates_S1x255_S1x255_S1x255_S1x255_S4x255_d0 (ix2 (0 : Fin 4) c) = x0 (ix2 (0 : Fin 1) c) :=
  concatenate_apply_piece (0 : Fin S4x255.rank) _ _ (ix2 (0 : Fin 4) c) 0 (by show (0 : Nat) < 4; decide) S1x255 x0 rfl rfl 0 rfl
    (ix2 (0 : Fin 1) c) (fun b hb => match b, hb with | ⟨0, _⟩, hb => absurd rfl hb | ⟨1, _⟩, _ => rfl) rfl
theorem stack_row1 (x0 x1 x2 x3 : FVec Ideal S1x255 .f32) (c : Fin 255) :
    concatenate S4x255 0 [⟨S1x255, x0⟩, ⟨S1x255, x1⟩, ⟨S1x255, x2⟩, ⟨S1x255, x3⟩]
      concatenates_S1x255_S1x255_S1x255_S1x255_S4x255_d0 (ix2 (1 : Fin 4) c) = x1 (ix2 (0 : Fin 1) c) :=
  concatenate_apply_piece (0 : Fin S4x255.rank) _ _ (ix2 (1 : Fin 4) c) 1 (by show (1 : Nat) < 4; decide) S1x255 x1 rfl rfl 1 rfl
    (ix2 (0 : Fin 1) c) (fun b hb => match b, hb with | ⟨0, _⟩, hb => absurd rfl hb | ⟨1, _⟩, _ => rfl) rfl
theorem stack_row2 (x0 x1 x2 x3 : FVec Ideal S1x255 .f32) (c : Fin 255) :
    concatenate S4x255 0 [⟨S1x255, x0⟩, ⟨S1x255, x1⟩, ⟨S1x255, x2⟩, ⟨S1x255, x3⟩]
      concatenates_S1x255_S1x255_S1x255_S1x255_S4x255_d0 (ix2 (2 : Fin 4) c) = x2 (ix2 (0 : Fin 1) c) :=
  concatenate_apply_piece (0 : Fin S4x255.rank) _ _ (ix2 (2 : Fin 4) c) 2 (by show (2 : Nat) < 4; decide) S1x255 x2 rfl rfl 2 rfl
    (ix2 (0 : Fin 1) c) (fun b hb => match b, hb with | ⟨0, _⟩, hb => absurd rfl hb | ⟨1, _⟩, _ => rfl) rfl
theorem stack_row3 (x0 x1 x2 x3 : FVec Ideal S1x255 .f32) (c : Fin 255) :
    concatenate S4x255 0 [⟨S1x255, x0⟩, ⟨S1x255, x1⟩, ⟨S1x255, x2⟩, ⟨S1x255, x3⟩]
      concatenates_S1x255_S1x255_S1x255_S1x255_S4x255_d0 (ix2 (3 : Fin 4) c) = x3 (ix2 (0 : Fin 1) c) :=
  concatenate_apply_piece (0 : Fin S4x255.rank) _ _ (ix2 (3 : Fin 4) c) 3 (by show (3 : Nat) < 4; decide) S1x255 x3 rfl rfl 3 rfl
    (ix2 (0 : Fin 1) c) (fun b hb => match b, hb with | ⟨0, _⟩, hb => absurd rfl hb | ⟨1, _⟩, _ => rfl) rfl

/-- The input transposed by [2, 3, 0, 1], read at grid row, grid column, image, channel. -/
theorem transposed_apply (x : S16x255x76x76.Idx → EReal) (gy gx : Fin 76) (b : Fin 16) (c : Fin 255) :
    transpose S76x76x16x255 [2, 3, 0, 1] x transposes_S16x255x76x76_S76x76x16x255_2_3_0_1 (ix4 gy gx b c) = x (ix4 b c gy gx) :=
  transpose_apply [2, 3, 0, 1] x transposes_S16x255x76x76_S76x76x16x255_2_3_0_1 (ix4 gy gx b c) (ix4 b c gy gx)
    (fun a => match a with | ⟨0, _⟩ => rfl | ⟨1, _⟩ => rfl | ⟨2, _⟩ => rfl | ⟨3, _⟩ => rfl)

/-! ## The two arrays as terms over the launch contents -/

/-- The first array is the input transposed. -/
theorem pre_v0_eq (W : Valuation τ sig (Elt Ideal)) :
    (StableHlo.after pre W (Proc.devRef .tc main_v0) : S76x76x16x255.Idx → EReal)
      = transpose S76x76x16x255 [2, 3, 0, 1] (W (Proc.devRef .tc main_arg0) : S16x255x76x76.Idx → EReal)
          transposes_S16x255x76x76_S76x76x16x255_2_3_0_1 := by
  simp only [pre, hostOps0, hostOps0_1, hostOps0_2, List.flatten_cons, List.flatten_nil, List.append_nil, List.cons_append,
    List.nil_append]
  after_results

/-- The second array is the four rows stacked along axis 0.  The last operation's four operands are read each at its
    own reference; every other operation's result is what it computes from its operands' contents. -/
theorem pre_v17_eq (W : Valuation τ sig (Elt Ideal)) :
    (StableHlo.after pre W (Proc.devRef .tc main_v17) : S4x255.Idx → EReal)
      = concatenate S4x255 0
          [⟨S1x255, asRow (row0 (W (Proc.devRef .tc main_arg1)))⟩, ⟨S1x255, asRow (tbl lit2)⟩,
           ⟨S1x255, asRow (row2 (W (Proc.devRef .tc main_arg1)))⟩, ⟨S1x255, asRow (row3 (W (Proc.devRef .tc main_arg1)))⟩]
          concatenates_S1x255_S1x255_S1x255_S1x255_S4x255_d0 := by
  simp only [pre, hostOps0, hostOps0_1, hostOps0_2, List.flatten_cons, List.flatten_nil, List.append_nil, List.cons_append,
    List.nil_append]
  simp (disch := decide) only [after_cons, after_nil, StableHlo.nullary_result', StableHlo.unary_result',
    StableHlo.binary_result', StableHlo.ternary_result', StableHlo.nary4_result', StableHlo.nullary_result_ne',
    StableHlo.unary_result_ne', StableHlo.binary_result_ne', StableHlo.ternary_result_ne', StableHlo.nary_result_ne']
  rfl

/-! ## The two arrays at an index -/

/-- The first array at (grid row, grid column, image, channel) is the input at (image, channel, grid row, grid column). -/
theorem pre_v0_apply (W : Valuation τ sig (Elt Ideal)) (gy gx : Fin 76) (b : Fin 16) (c : Fin 255) :
    (StableHlo.after pre W (Proc.devRef .tc main_v0) : S76x76x16x255.Idx → EReal) (ix4 gy gx b c)
      = (W (Proc.devRef .tc main_arg0) : S16x255x76x76.Idx → EReal) (ix4 b c gy gx) :=
  (congrFun (pre_v0_eq W) (ix4 gy gx b c)).trans (transposed_apply _ gy gx b c)

/-- Row 0 of the table: the channel's multiplier `t1·(1 − t0) + S·t0`. -/
theorem pre_v17_row0 (W : Valuation τ sig (Elt Ideal)) (c : Fin 255) :
    (StableHlo.after pre W (Proc.devRef .tc main_v17) : S4x255.Idx → EReal) (ix2 (0 : Fin 4) c)
      = T1 c * (Cert.Spec.one - T0 c) + Cert.Spec.stride (W (Proc.devRef .tc main_arg1)) * T0 c :=
  (congrFun (pre_v17_eq W) (ix2 (0 : Fin 4) c)).trans
    ((stack_row0 _ _ _ _ c).trans ((asRow_apply _ c).trans (row0_apply _ c)))

/-- Row 1 of the table: the channel's uses-exp flag `t2`. -/
theorem pre_v17_row1 (W : Valuation τ sig (Elt Ideal)) (c : Fin 255) :
    (StableHlo.after pre W (Proc.devRef .tc main_v17) : S4x255.Idx → EReal) (ix2 (1 : Fin 4) c) = T2 c :=
  (congrFun (pre_v17_eq W) (ix2 (1 : Fin 4) c)).trans
    ((stack_row1 _ _ _ _ c).trans ((asRow_apply _ c).trans (tbl_apply lit2 c)))

/-- Row 2 of the table: the channel's x offset scale `t3·S`. -/
theorem pre_v17_row2 (W : Valuation τ sig (Elt Ideal)) (c : Fin 255) :
    (StableHlo.after pre W (Proc.devRef .tc main_v17) : S4x255.Idx → EReal) (ix2 (2 : Fin 4) c)
      = T3 c * Cert.Spec.stride (W (Proc.devRef .tc main_arg1)) :=
  (congrFun (pre_v17_eq W) (ix2 (2 : Fin 4) c)).trans
    ((stack_row2 _ _ _ _ c).trans ((asRow_apply _ c).trans (row2_apply _ c)))

/-- Row 3 of the table: the channel's y offset scale `t4·S`. -/
theorem pre_v17_row3 (W : Valuation τ sig (Elt Ideal)) (c : Fin 255) :
    (StableHlo.after pre W (Proc.devRef .tc main_v17) : S4x255.Idx → EReal) (ix2 (3 : Fin 4) c)
      = T4 c * Cert.Spec.stride (W (Proc.devRef .tc main_arg1)) :=
  (congrFun (pre_v17_eq W) (ix2 (3 : Fin 4) c)).trans
    ((stack_row3 _ _ _ _ c).trans ((asRow_apply _ c).trans (row3_apply _ c)))

end Cert.KernelIdeal.Decode

end
-- ==== Proof.KValue.lean ====
/-
  The kernel's result array.

  The region computes, for image `b`, grid cell `(gy, gx)` and channel `ch`, one value from the input element
  `x[b, ch, gy, gx]` and the channel's entries of the four-row table: `Cert.Spec.kval`.  It works on the input transposed
  to `[76, 76, 16, 255]`, two grid rows per point: point `t` of the 38 reads rows `2t, 2t + 1` and writes rows
  `152 t … 152 t + 151` of the result `[16, 5776, 255]`, whose row `g` is grid cell `(g / 76, g % 76)`.  The 38 blocks tile
  the result, so it ends as one function `decoded` of the launch contents.  The closing reshape to `[16, 17328, 85]` keeps
  row-major positions: output `(b, r, t)` is result `(b, r / 3, (r % 3)·85 + t)`, which is `Cert.Spec.outK` index by index.
-/
import proofs.«131963_g56642028700200_fold_wed_c4_437_7_alg».proof.Proof.KFrameIdeal
import proofs.«131963_g56642028700200_fold_wed_c4_437_7_alg».proof.Proof.KPayload
import proofs.«131963_g56642028700200_fold_wed_c4_437_7_alg».proof.Proof.KHost
import proofs.«131963_g56642028700200_fold_wed_c4_437_7_alg».proof.Proof.Spec
import Idealize.ShloMosaic.Lib.Pipeline.Value
import Idealize.ShloMosaic.Lib.ValueIdx

set_option maxRecDepth 16384

noncomputable section

namespace Cert.KernelIdeal.Decode

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays by their literal types -/

/-- The input as launched, and the scalar. -/
abbrev xIn (c : Dev nD) : S16x255x76x76.Idx → EReal := m ((c : Thread nD τ).loc main_arg0)
abbrev dIn (c : Dev nD) : IVec S_ 32 := m ((c : Thread nD τ).loc main_arg1)
/-- The transposed input and the four-row table, as the region finds them. -/
abbrev xT (c : Dev nD) : S76x76x16x255.Idx → EReal := entry m c main_v0
abbrev tab (c : Dev nD) : S4x255.Idx → EReal := entry m c main_v17

/-- The transposed input at grid row `gy`, column `gx`, image `b`, channel `ch` is the input at `(b, ch, gy, gx)`. -/
theorem xT_apply (c : Dev nD) (gy gx : Fin 76) (b : Fin 16) (ch : Fin 255) :
    xT m c (ix4 gy gx b ch) = xIn m c (ix4 b ch gy gx) :=
  pre_v0_apply (fun r => m (c, r)) gy gx b ch

/-- The table's four rows: the channel's multiplier `t1·(1 − t0) + S·t0`, its uses-exp flag, its x and y offset scales. -/
theorem tab_row0 (c : Dev nD) (ch : Fin 255) :
    tab m c (ix2 (0 : Fin 4) ch) = T1 ch * (Cert.Spec.one - T0 ch) + Cert.Spec.stride (dIn m c) * T0 ch :=
  pre_v17_row0 (fun r => m (c, r)) ch
theorem tab_row1 (c : Dev nD) (ch : Fin 255) : tab m c (ix2 (1 : Fin 4) ch) = T2 ch :=
  pre_v17_row1 (fun r => m (c, r)) ch
theorem tab_row2 (c : Dev nD) (ch : Fin 255) : tab m c (ix2 (2 : Fin 4) ch) = T3 ch * Cert.Spec.stride (dIn m c) :=
  pre_v17_row2 (fun r => m (c, r)) ch
theorem tab_row3 (c : Dev nD) (ch : Fin 255) : tab m c (ix2 (3 : Fin 4) ch) = T4 ch * Cert.Spec.stride (dIn m c) :=
  pre_v17_row3 (fun r => m (c, r)) ch

/-! ## The region's result as one function of the launch contents -/

/-- The decoded value at image `b`, grid row `gy`, column `gx`, channel `ch`. -/
def decodedAt (c : Dev nD) (b : Fin 16) (gy gx : Fin 76) (ch : Fin 255) : EReal :=
  Cert.Spec.kval (xIn m c (ix4 b ch gy gx)) (Cert.Spec.stride (dIn m c)) (T0 ch) (T1 ch) (T2 ch) (T3 ch) (T4 ch)
    ((((gx.val : ℕ) : ℝ)) : EReal) ((((gy.val : ℕ) : ℝ)) : EReal)

/-- The region's result `[16, 5776, 255]`: row `g` is grid cell `(g / 76, g % 76)`. -/
def decoded (c : Dev nD) : S16x5776x255.Idx → EReal := fun i =>
  decodedAt m c ⟨(i 0).val, (i 0).isLt⟩ ⟨(i 1).val / 76, by have : (i 1).val < 5776 := (i 1).isLt; omega⟩
    ⟨(i 1).val % 76, Nat.mod_lt _ (by decide)⟩ ⟨(i 2).val, (i 2).isLt⟩

theorem decoded_eq (c : Dev nD) (i : S16x5776x255.Idx) (b : Fin 16) (gy gx : Fin 76) (ch : Fin 255)
    (h0 : (i 0).val = b.val) (h1 : (i 1).val = gy.val * 76 + gx.val) (h2 : (i 2).val = ch.val) :
    decoded m c i = decodedAt m c b gy gx ch := by
  have hx := gx.isLt
  unfold decoded
  congr 1
  · exact Fin.ext h0
  · exact Fin.ext (by show (i 1).val / 76 = gy.val; omega)
  · exact Fin.ext (by show (i 1).val % 76 = gx.val; omega)
  · exact Fin.ext h2

/-! ## The body's result at an index -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Row `k` of the table, loaded, at channel `ch` is the table's entry `(k, ch)`. -/
theorem ld_row0 (x1 : Vec Ideal S4x255 .f32) (ch : Fin 255) : View.ld x1 rRow0 (ix2 (0 : Fin 1) ch) = x1 (ix2 (0 : Fin 4) ch) := by
  refine congrArg x1 (funext fun a => Fin.ext ?_)
  match a with
  | ⟨0, _⟩ => rfl
  | ⟨1, _⟩ => show 0 + 1 * ch.val = ch.val; omega
theorem ld_row1 (x1 : Vec Ideal S4x255 .f32) (ch : Fin 255) : View.ld x1 rRow1 (ix2 (0 : Fin 1) ch) = x1 (ix2 (1 : Fin 4) ch) := by
  refine congrArg x1 (funext fun a => Fin.ext ?_)
  match a with
  | ⟨0, _⟩ => rfl
  | ⟨1, _⟩ => show 0 + 1 * ch.val = ch.val; omega
theorem ld_row2 (x1 : Vec Ideal S4x255 .f32) (ch : Fin 255) : View.ld x1 rRow2 (ix2 (0 : Fin 1) ch) = x1 (ix2 (2 : Fin 4) ch) := by
  refine congrArg x1 (funext fun a => Fin.ext ?_)
  match a with
  | ⟨0, _⟩ => rfl
  | ⟨1, _⟩ => show 0 + 1 * ch.val = ch.val; omega
theorem ld_row3 (x1 : Vec Ideal S4x255 .f32) (ch : Fin 255) : View.ld x1 rRow3 (ix2 (0 : Fin 1) ch) = x1 (ix2 (3 : Fin 4) ch) := by
  refine congrArg x1 (funext fun a => Fin.ext ?_)
  match a with
  | ⟨0, _⟩ => rfl
  | ⟨1, _⟩ => show 0 + 1 * ch.val = ch.val; omega

/-- The output block's staging buffer after the body, at image `b`, block row `p*76+q` and channel `ch`. -/
theorem bodyOut_apply (i : grid0.Coords) (x0 : Vec Ideal S2x76x16x255 .f32) (x1 : Vec Ideal S4x255 .f32)
    (b : Fin 16) (p : Fin 2) (q : Fin 76) (ch : Fin 255) :
    bodyOut (F := Ideal) i x0 x1 (ix3 b (⟨p.val * 76 + q.val, by have := p.isLt; have := q.isLt; omega⟩ : Fin 152) ch)
      = Cert.Spec.kpt (x0 (ix4 p q b ch)) (x1 (ix2 (0 : Fin 4) ch)) (x1 (ix2 (1 : Fin 4) ch)) (x1 (ix2 (2 : Fin 4) ch)) (x1 (ix2 (3 : Fin 4) ch))
          ((((q.val : ℕ) : ℝ)) : EReal) (((((i 0).val * 2 + p.val : ℕ) : ℝ)) : EReal) := by
  unfold bodyOut
  rw [View.canon_unit_zero zeros3, pay_apply, View.ld_unit_zero (S := S2x76x16x255) zeros4, ld_row0, ld_row1, ld_row2, ld_row3]

/-! ## The windows' blocks read off the arrays -/

/-- The printed index maps over the 38 points: the input's block index is `(t, 0, 0, 0)`, the table's `(0, 0)`, the
    output's `(0, t, 0)`; the point's one coordinate is `t`. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ (grid0.coords t 0).val = t.val ∧ t.val < 38 :=
  (by decide +kernel : ∀ t : Fin grid0.N, _)

theorem point_lt (t : Fin cfg0.N) : t.val < 38 := (index_facts t).2.2.2.2.2.2.2.2.2.2

/-- The input window's block and the table window's block at point `t`. -/
abbrev xblk (c : Dev nD) (t : Fin cfg0.N) : Vec Ideal S2x76x16x255 .f32 := blockAt m c 0 t
abbrev tblk (c : Dev nD) (t : Fin cfg0.N) : Vec Ideal S4x255 .f32 := blockAt m c 1 t

/-- Point `t`'s input block holds grid rows `2t` and `2t + 1`. -/
theorem xblk_apply (c : Dev nD) (t : Fin cfg0.N) (p : Fin 2) (q : Fin 76) (b : Fin 16) (ch : Fin 255) :
    xblk m c t (ix4 p q b ch)
      = xT m c (ix4 (⟨t.val * 2 + p.val, by have := point_lt t; have := p.isLt; omega⟩ : Fin 76) q b ch) := by
  obtain ⟨e0, e1, e2, e3, -⟩ := index_facts t
  unfold xblk blockAt
  rw [View.read_apply]
  show entry m c main_v0 _ = entry m c main_v0 _
  congr 1
  funext a
  apply Fin.ext
  match a with
  | ⟨0, _⟩ => show win0_0.index t (0 : Fin 4) * 2 + 1 * p.val = t.val * 2 + p.val; rw [e0]; omega
  | ⟨1, _⟩ => show win0_0.index t (1 : Fin 4) * 76 + 1 * q.val = q.val; rw [e1]; omega
  | ⟨2, _⟩ => show win0_0.index t (2 : Fin 4) * 16 + 1 * b.val = b.val; rw [e2]; omega
  | ⟨3, _⟩ => show win0_0.index t (3 : Fin 4) * 255 + 1 * ch.val = ch.val; rw [e3]; omega

/-- The table's block is the whole table at every point. -/
theorem tblk_apply (c : Dev nD) (t : Fin cfg0.N) (k : Fin 4) (ch : Fin 255) :
    tblk m c t (ix2 k ch) = tab m c (ix2 k ch) := by
  obtain ⟨-, -, -, -, e0, e1, -⟩ := index_facts t
  unfold tblk blockAt
  rw [View.read_apply]
  show entry m c main_v17 _ = entry m c main_v17 _
  congr 1
  funext a
  apply Fin.ext
  match a with
  | ⟨0, _⟩ => show win0_1.index t (0 : Fin 2) * 4 + 1 * k.val = k.val; rw [e0]; omega
  | ⟨1, _⟩ => show win0_1.index t (1 : Fin 2) * 255 + 1 * ch.val = ch.val; rw [e1]; omega

/-! ## What a point writes back -/

/-- The body's result at point `t`, image `b`, block row `p*76+q`, channel `ch`, is the decoded value at grid cell
    `(2t + p, q)`. -/
theorem written_at (c : Dev nD) (t : Fin cfg0.N) (b : Fin 16) (p : Fin 2) (q : Fin 76) (ch : Fin 255) :
    bodyOut (F := Ideal) (grid0.coords t) (xblk m c t) (tblk m c t)
        (ix3 b (⟨p.val * 76 + q.val, by have := p.isLt; have := q.isLt; omega⟩ : Fin 152) ch)
      = decodedAt m c b (⟨t.val * 2 + p.val, by have := point_lt t; have := p.isLt; omega⟩ : Fin 76) q ch := by
  have ec : (grid0.coords t 0).val = t.val := (index_facts t).2.2.2.2.2.2.2.2.2.1
  rw [bodyOut_apply, xblk_apply, tblk_apply, tblk_apply, tblk_apply, tblk_apply, xT_apply, tab_row0, tab_row1, tab_row2, tab_row3, ec]
  rfl

/-- What point `t` writes back is block `t` of `decoded`: rows `152 t … 152 t + 151`. -/
theorem flushed_eq (c : Dev nD) (t : Fin cfg0.N) :
    (pdata (F := Ideal) m 0 c).flushed 2 t = ((cfg0.win 2).blk t).view.read (Elt Ideal) (decoded m c) := by
  obtain ⟨-, -, -, -, -, -, e0, e1, e2, -⟩ := index_facts t
  show (cfg0.win 2).cut (grid0.coords t) ((pdata (F := Ideal) m 0 c).after 2 t) = _
  rw [after_out]
  funext j
  show bodyOut (F := Ideal) (grid0.coords t) (xblk m c t) (tblk m c t) j = decoded m c (((cfg0.win 2).blk t).view.emb j)
  obtain ⟨b, r, ch, rfl⟩ : ∃ (b : Fin 16) (r : Fin 152) (ch : Fin 255), j = ix3 b r ch := ⟨j 0, j 1, j 2, eq_ix3 j⟩
  have hr := r.isLt
  have hrq : r = (⟨(⟨r.val / 76, by omega⟩ : Fin 2).val * 76 + (⟨r.val % 76, Nat.mod_lt _ (by decide)⟩ : Fin 76).val, by
      show r.val / 76 * 76 + r.val % 76 < 152; omega⟩ : Fin 152) := Fin.ext (by show r.val = r.val / 76 * 76 + r.val % 76; omega)
  rw [hrq, written_at]
  refine (decoded_eq m c _ b _ _ ch ?_ ?_ ?_).symm
  · show win0_2.index t (0 : Fin 3) * 16 + 1 * b.val = b.val; rw [e0]; omega
  · show win0_2.index t (1 : Fin 3) * 152 + 1 * (r.val / 76 * 76 + r.val % 76) = (t.val * 2 + r.val / 76) * 76 + r.val % 76; rw [e1]; omega
  · show win0_2.index t (2 : Fin 3) * 255 + 1 * ch.val = ch.val; rw [e2]; omega

/-! ## The blocks cover the array -/

/-- An index of the result array is in point `t`'s block iff each coordinate is in the block's range on its axis. -/
theorem mem_outBlock (t : Fin cfg0.N) (i : S16x5776x255.Idx) :
    i ∈ ((cfg0.win 2).blk t).view.set ↔ ∀ a : Fin 3, win0_2.index t a * S16x152x255.size a ≤ (i a).val
      ∧ (i a).val < win0_2.index t a * S16x152x255.size a + S16x152x255.size a := by
  show i ∈ ((View.whole main_v18).slice (win0_2.rect t)).set ↔ _
  rw [View.set_slice_whole, Rect.mem_set_unit]
  exact Iff.rfl

/-- Row `g` of the result array is written by point `g / 152`. -/
theorem covered (i : S16x5776x255.Idx) :
    ∃ t : Fin cfg0.N, (cfg0.win 2).flush t = true ∧ i ∈ ((cfg0.win 2).blk t).view.set := by
  have h0 : (i 0).val < 16 := (i 0).isLt
  have h1 : (i 1).val < 5776 := (i 1).isLt
  have h2 : (i 2).val < 255 := (i 2).isLt
  have hN : cfg0.N = 38 := N_0
  let t : Fin cfg0.N := ⟨(i 1).val / 152, by rw [hN]; omega⟩
  obtain ⟨-, -, -, -, -, -, e0, e1, e2, -⟩ := index_facts t
  have et : t.val = (i 1).val / 152 := rfl
  refine ⟨t, flush0_2 t, ?_⟩
  rw [mem_outBlock]
  intro a
  match a with
  | ⟨0, _⟩ => show win0_2.index t (0 : Fin 3) * 16 ≤ (i 0).val ∧ (i 0).val < win0_2.index t (0 : Fin 3) * 16 + 16; rw [e0]; omega
  | ⟨1, _⟩ => show win0_2.index t (1 : Fin 3) * 152 ≤ (i 1).val ∧ (i 1).val < win0_2.index t (1 : Fin 3) * 152 + 152; rw [e1, et]; omega
  | ⟨2, _⟩ => show win0_2.index t (2 : Fin 3) * 255 ≤ (i 2).val ∧ (i 2).val < win0_2.index t (2 : Fin 3) * 255 + 255; rw [e2]; omega

/-- The region's result array after the 38 write-backs. -/
theorem final (c : Dev nD) : (pdata (F := Ideal) m 0 c).arrAt 2 cfg0.N = decoded m c :=
  (pdata (F := Ideal) m 0 c).arrAt_eq_of_cover 2 (decoded m c) (fun t _ => flushed_eq m c t) covered

/-! ## The closing reshape -/

/-- The reshape `[16, 5776, 255] → [16, 17328, 85]` read at `j`: the same row-major position is image `j 0`, row
    `j 1 / 3`, channel `(j 1 % 3)·85 + j 2`; row `g = j 1 / 3` is grid cell `(g / 76, g % 76)`. -/
theorem tail_v19 (c : Dev nD) :
    Pipeline.afterTail₀ cfgs (pdata (F := Ideal) m) 0 (entry0 m) [hostOps1] c main_v19
      = Cert.Spec.outK T0 T1 T2 T3 T4 (xIn m c) (dIn m c) := by
  unfold Pipeline.afterTail₀
  show StableHlo.after hostOps1 _ (Proc.devRef .tc main_v19) = _
  after_results
  refine funext fun (j : Cert.Spec.SOut.Idx) => ?_
  have hj0 : (j 0).val < 16 := (j 0).isLt
  have hj1 : (j 1).val < 17328 := (j 1).isLt
  have hj2 : (j 2).val < 85 := (j 2).isLt
  refine (shapeCast_apply _ shapeCasts_S16x5776x255_S16x17328x85 j
      (ix3 (Cert.Spec.oB j) (⟨(j 1).val / 3, by omega⟩ : Fin 5776) (Cert.Spec.oC j)) ?_).trans ?_
  · rw [Shape.rowMajor_val_three, Shape.rowMajor_val_three]
    show ((j 0).val * 5776 + (j 1).val / 3) * 255 + ((j 1).val % 3 * 85 + (j 2).val)
      = ((j 0).val * 17328 + (j 1).val) * 85 + (j 2).val
    omega
  · refine (congrFun ((Pipeline.withArrays_arr spec0 launch0.win.arr_inj c _ _ 2).trans (final m c)) _).trans ?_
    rfl

/-! ## The run, read -/

/-- The kernel's program runs to the end with its result array at `Cert.Spec.outK` of the launch contents and both
    arguments as launched. -/
theorem value_run : θ_run (defs (F := Ideal)) (onTc (τ := τ) (main (F := Ideal))) ⟨m, fun _ => 0, ρ⟩ (fun r => ∀ c : Dev nD,
      r.2.mem ((c.tc : Thread nD τ).loc main_v19) = Cert.Spec.outK T0 T1 T2 T3 T4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
      ((h c).2 main_v19 (Pipeline.mem_restRefs_of main_v19 (by decide) (by decide))).trans (tail_v19 m c),
      ((h c).2 main_arg0 (Pipeline.mem_restRefs_of main_arg0 (by decide) (by decide))).trans (tail_arg0 m (pdata m) c),
      ((h c).2 main_arg1 (Pipeline.mem_restRefs_of main_arg1 (by decide) (by decide))).trans (tail_arg1 m (pdata m) c)⟩)
    (run_main m ρ)

end Cert.KernelIdeal.Decode

end
-- ==== Proof.RRun.lean ====
/-
  The reference program's run.

  The reference is a host program with no kernel: seventy-five tensor operations in a straight line, twelve of
  them the body of `floor_divide(input_dim, 76)` (with `where` inside it) written out at the call over the
  call's own buffers.  This module lists them in program order (`ops`), shows that the printed `@main` is
  exactly that line (`main_eq`), and reads the run back: every fair execution ends with each buffer at the
  fold of the operations over the contents at launch (`run_main`).  No operation writes either argument, so
  the fold leaves both as they were (`arg0_kept`, `arg1_kept`).
-/
import proofs.«131963_g56642028700200_fold_wed_c4_437_7_alg».proof.ReferenceIdeal
import Idealize.ShloMosaic.Lib.StableHlo.Run

noncomputable section

namespace Cert.ReferenceIdeal.Decode

open Cert.ReferenceIdeal Cert.ReferenceIdeal.Facts₀ Idealize.ShloMosaic Idealize.ShloMosaic.TcCoe Idealize.ShloMosaic.StableHlo Idealize.SL.Sem

variable {F : FTy → Type} [FloatOps F]
variable [Cert.ReferenceIdeal.Facts]

/-- The operations in program order.  Lines 3–14 are `floor_divide`: the divisor converted to its own type, the
    truncated quotient, the two signs and whether they differ, the remainder and whether it is nonzero, the
    quotient less one, and the choice between the two.  Then the stride as a float and the anchors divided by
    it; the input regrouped as `[b, gy·76+gx, a, t]`; the sigmoid of attributes 0–1, the exponential of 2–3
    times the scaled anchors, the sigmoid of 4–84; the grid columns and rows as floats; the two offsets added
    and everything multiplied by the stride; the four pieces joined along the attribute axis and the anchor
    axis folded into the position axis. -/
abbrev ops : List (HloOp τ sig (Elt F)) :=
  [ nullary main_cst (fun i => FloatOps.ofBits .f32 (lit0 (S3x2.rowMajor i))),
    nullary main_c (constantI S_ 32 76#32),
    TRef.unary (.of main_c) main_call0.v0 id,
    TRef.binary (.of main_arg1) main_call0.v0 main_call0.v1 Host.divsi,
    TRef.unary (.of main_arg1) main_call0.v2 signi,
    TRef.unary main_call0.v0 main_call0.v3 signi,
    TRef.binary main_call0.v2 main_call0.v3 main_call0.v4 (cmpi .ne),
    TRef.binary (.of main_arg1) main_call0.v0 main_call0.v5 Host.remsi,
    TRef.nullary main_call0.c (constantI S_ 32 0#32),
    TRef.binary main_call0.v5 main_call0.c main_call0.v6 (cmpi .ne),
    TRef.binary main_call0.v4 main_call0.v6 main_call0.v7 andi,
    TRef.nullary main_call0.c_0 (constantI S_ 32 1#32),
    TRef.binary main_call0.v1 main_call0.c_0 main_call0.v8 subi,
    TRef.ternary main_call0.v7 main_call0.v8 main_call0.v1 main_call0.call0.v0 select,
    unary main_v0 main_v1 (sitofp .f32),
    unary main_v1 main_v2 (broadcastInDim S3x2 ![] bcast_S_S3x2),
    binary main_cst main_v2 main_v3 Host.divf,
    reshape main_arg0 main_v4 rfl shapeCasts_S16x255x76x76_S16x3x85x5776,
    unary main_v4 main_v5 (transpose S16x5776x3x85 [0, 3, 1, 2] · transposes_S16x3x85x5776_S16x5776x3x85_0_3_1_2),
    unary main_v5 main_v6 (extractStridedSlice S16x5776x3x2 ![0, 0, 0, 0] · slices_S16x5776x3x85_S16x5776x3x2_0_0_0_0),
    unary main_v6 main_v7 Host.negf,
    unary main_v7 main_v8 Host.exp,
    nullary main_cst_0 (constant S_ .f32 0x3F800000#32),
    unary main_cst_0 main_v9 (broadcastInDim S16x5776x3x2 ![] bcast_S_S16x5776x3x2),
    binary main_v9 main_v8 main_v10 addf,
    nullary main_cst_1 (constant S_ .f32 0x3F800000#32),
    unary main_cst_1 main_v11 (broadcastInDim S16x5776x3x2 ![] bcast_S_S16x5776x3x2),
    binary main_v11 main_v10 main_v12 Host.divf,
    nullary main_cst_2 (constant S_ .f32 0x3F800000#32),
    unary main_cst_2 main_v13 (broadcastInDim S16x5776x3x2 ![] bcast_S_S16x5776x3x2),
    binary main_v12 main_v13 main_v14 mulf,
    nullary main_cst_3 (constant S_ .f32 0x00000000#32),
    unary main_cst_3 main_v15 (broadcastInDim S16x5776x3x2 ![] bcast_S_S16x5776x3x2),
    binary main_v14 main_v15 main_v16 subf,
    unary main_v5 main_v17 (extractStridedSlice S16x5776x3x2 ![0, 0, 0, 2] · slices_S16x5776x3x85_S16x5776x3x2_0_0_0_2),
    unary main_v17 main_v18 Host.exp,
    unary main_v3 main_v19 (broadcastInDim S1x1x3x2 ![2, 3] bcast_S3x2_S1x1x3x2_2_3),
    unary main_v19 main_v20 (broadcastInDim S16x5776x3x2 ![0, 1, 2, 3] bcast_S1x1x3x2_S16x5776x3x2_0_1_2_3),
    binary main_v18 main_v20 main_v21 mulf,
    unary main_v5 main_v22 (extractStridedSlice S16x5776x3x81 ![0, 0, 0, 4] · slices_S16x5776x3x85_S16x5776x3x81_0_0_0_4),
    unary main_v22 main_v23 Host.negf,
    unary main_v23 main_v24 Host.exp,
    nullary main_cst_4 (constant S_ .f32 0x3F800000#32),
    unary main_cst_4 main_v25 (broadcastInDim S16x5776x3x81 ![] bcast_S_S16x5776x3x81),
    binary main_v25 main_v24 main_v26 addf,
    nullary main_cst_5 (constant S_ .f32 0x3F800000#32),
    unary main_cst_5 main_v27 (broadcastInDim S16x5776x3x81 ![] bcast_S_S16x5776x3x81),
    binary main_v27 main_v26 main_v28 Host.divf,
    nullary main_v29 (iotaInDim S76 32 0),
    unary main_v29 main_v30 (broadcastInDim S76x76 ![0] bcast_S76_S76x76_0),
    unary main_v29 main_v31 (broadcastInDim S76x76 ![1] bcast_S76_S76x76_1),
    reshape main_v31 main_v32 rfl shapeCasts_S76x76_S5776,
    unary main_v32 main_v33 (sitofp .f32),
    reshape main_v30 main_v34 rfl shapeCasts_S76x76_S5776,
    unary main_v34 main_v35 (sitofp .f32),
    unary main_v16 main_v36 (extractStridedSlice S16x5776x3x1 ![0, 0, 0, 0] · slices_S16x5776x3x2_S16x5776x3x1_0_0_0_0),
    reshape main_v36 main_v37 rfl shapeCasts_S16x5776x3x1_S16x5776x3,
    unary main_v33 main_v38 (broadcastInDim S1x5776x1 ![1] bcast_S5776_S1x5776x1_1),
    unary main_v38 main_v39 (broadcastInDim S16x5776x3 ![0, 1, 2] bcast_S1x5776x1_S16x5776x3_0_1_2),
    binary main_v37 main_v39 main_v40 addf,
    unary main_v1 main_v41 (broadcastInDim S16x5776x3 ![] bcast_S_S16x5776x3),
    binary main_v40 main_v41 main_v42 mulf,
    unary main_v16 main_v43 (extractStridedSlice S16x5776x3x1 ![0, 0, 0, 1] · slices_S16x5776x3x2_S16x5776x3x1_0_0_0_1),
    reshape main_v43 main_v44 rfl shapeCasts_S16x5776x3x1_S16x5776x3,
    unary main_v35 main_v45 (broadcastInDim S1x5776x1 ![1] bcast_S5776_S1x5776x1_1),
    unary main_v45 main_v46 (broadcastInDim S16x5776x3 ![0, 1, 2] bcast_S1x5776x1_S16x5776x3_0_1_2),
    binary main_v44 main_v46 main_v47 addf,
    unary main_v1 main_v48 (broadcastInDim S16x5776x3 ![] bcast_S_S16x5776x3),
    binary main_v47 main_v48 main_v49 mulf,
    unary main_v1 main_v50 (broadcastInDim S16x5776x3x2 ![] bcast_S_S16x5776x3x2),
    binary main_v21 main_v50 main_v51 mulf,
    unary main_v42 main_v52 (broadcastInDim S16x5776x3x1 ![0, 1, 2] bcast_S16x5776x3_S16x5776x3x1_0_1_2),
    unary main_v49 main_v53 (broadcastInDim S16x5776x3x1 ![0, 1, 2] bcast_S16x5776x3_S16x5776x3x1_0_1_2),
    nary ![main_v52, main_v53, main_v51, main_v28] main_v54 (fun u => concatenate S16x5776x3x85 3 [⟨S16x5776x3x1, u 0⟩, ⟨S16x5776x3x1, u 1⟩, ⟨S16x5776x3x2, u 2⟩, ⟨S16x5776x3x81, u 3⟩] concatenates_S16x5776x3x1_S16x5776x3x1_S16x5776x3x2_S16x5776x3x81_S16x5776x3x85_d3),
    reshape main_v54 main_v55 rfl shapeCasts_S16x5776x3x85_S16x17328x85 ]

/-- No buffer of this program is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

-- seventy-five binds re-associated: the rewrite under the chain recurses once per statement
set_option maxRecDepth 2048 in
/-- The printed program is that straight line: its two windows, the call and the call inside it opened, both
    sides are one chain of steps once sequencing is re-associated. -/
theorem main_eq (c : Dev nD) : main (F := F) c = StableHlo.seq ops := by
  simp only [main, main_part0, main_part1, fn_floor_divide.body, fn_where.body, seq, bind_assoc, pure_bind]
  rfl

/-- Every operation touches TensorCore buffers only: one fact per operation, by its arity. -/
theorem ops_sub : (ops : List (HloOp τ sig (Elt F))).Forall fun op => op.bufs ⊆ tcRefs τ sig :=
  ⟨nullary_bufs_sub .., nullary_bufs_sub ..,
    -- floor_divide
    unary_bufs_sub .., binary_bufs_sub .., unary_bufs_sub .., unary_bufs_sub .., binary_bufs_sub .., binary_bufs_sub ..,
    nullary_bufs_sub .., binary_bufs_sub .., binary_bufs_sub .., nullary_bufs_sub .., binary_bufs_sub .., ternary_bufs_sub ..,
    -- the stride and the scaled anchors; the input regrouped
    unary_bufs_sub .., unary_bufs_sub .., binary_bufs_sub .., reshape_bufs_sub .., unary_bufs_sub ..,
    -- attributes 0–1
    unary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub ..,
    -- attributes 2–3
    unary_bufs_sub .., unary_bufs_sub .., unary_bufs_sub .., unary_bufs_sub .., binary_bufs_sub ..,
    -- attributes 4–84
    unary_bufs_sub .., unary_bufs_sub .., unary_bufs_sub .., nullary_bufs_sub .., unary_bufs_sub .., binary_bufs_sub ..,
    nullary_bufs_sub .., unary_bufs_sub .., binary_bufs_sub ..,
    -- the grid
    nullary_bufs_sub .., unary_bufs_sub .., unary_bufs_sub .., reshape_bufs_sub .., unary_bufs_sub .., reshape_bufs_sub ..,
    unary_bufs_sub ..,
    -- the x offset
    unary_bufs_sub .., reshape_bufs_sub .., unary_bufs_sub .., unary_bufs_sub .., binary_bufs_sub .., unary_bufs_sub ..,
    binary_bufs_sub ..,
    -- the y offset
    unary_bufs_sub .., reshape_bufs_sub .., unary_bufs_sub .., unary_bufs_sub .., binary_bufs_sub .., unary_bufs_sub ..,
    binary_bufs_sub ..,
    -- the box sizes; the pieces joined
    unary_bufs_sub .., binary_bufs_sub .., unary_bufs_sub .., unary_bufs_sub .., nary_bufs_sub .., reshape_bufs_sub ..⟩

/-- On the compiled mesh, for any float values, from any memory with zero counters: every weakly fair execution
    of the program terminates, and every final state has each buffer at the operations' fold over the contents
    at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

/-- No operation writes the input: the fold leaves it as it was. -/
theorem arg0_kept (V : Valuation τ sig (Elt F)) : StableHlo.after ops V (main_arg0 : DevRef τ sig) = V (main_arg0 : DevRef τ sig) := by
  simp only [after_cons, after_nil]
  rfl

/-- Nor the scalar. -/
theorem arg1_kept (V : Valuation τ sig (Elt F)) : StableHlo.after ops V (main_arg1 : DevRef τ sig) = V (main_arg1 : DevRef τ sig) := by
  simp only [after_cons, after_nil]
  rfl

end Cert.ReferenceIdeal.Decode

end
-- ==== Proof.RRead.lean ====
/-
  The reference's layout operations read at one element.

  The reference regroups the input [16, 255, 76, 76] as [16, 5776, 3, 85] (image, grid cell g = row·76 + column,
  anchor, attribute), cuts the attribute axis into the box centre (0, 1), the box size (2, 3) and the rest
  (4 … 84), computes on the pieces, joins them again along the attribute axis and folds the anchor axis into the
  cell axis: row n of the result is cell n / 3, anchor n % 3.  Beside the pieces it builds the per-cell grid row
  and column from an iota along each side of the 76 × 76 grid, and spreads the anchor table [3, 2] over images
  and cells.  Each lemma here says which ONE element of its operand such an operation reads at a given element
  of its result, over literal shapes and explicit coordinates; the arithmetic between the two index tuples is
  row-major position arithmetic.  The pointwise host operations at the ideal instance are the extended reals'.
-/
import proofs.«131963_g56642028700200_fold_wed_c4_437_7_alg».proof.ReferenceIdeal
import proofs.«131963_g56642028700200_fold_wed_c4_437_7_alg».proof.Proof.Spec
import Idealize.ShloMosaic.Lib.Pipeline.Value
import Idealize.ShloMosaic.Lib.ValueIdx
import Idealize.ShloMosaic.Lib.WordArith

noncomputable section

namespace Cert.ReferenceIdeal.Decode

open Cert.ReferenceIdeal Idealize.ShloMosaic Idealize.ShloMosaic.ValueIdx

/-! ## The host's pointwise operations at an index, at the ideal instance -/

section Pointwise
variable {s : Shape} {φ : FTy}

/-- The host's quotient at an index is the extended reals' division of the elements. -/
theorem hostDivf_apply (x y : FVec Ideal s φ) (i : s.Idx) : Host.divf x y i = Ideal.div (x i) (y i) := rfl
/-- The host's exponential at an index is the exponential of the element. -/
theorem hostExp_apply (x : FVec Ideal s φ) (i : s.Idx) : Host.exp x i = Ideal.exp (x i) := rfl
/-- The host's negation at an index is the negation of the element. -/
theorem hostNegf_apply (x : FVec Ideal s φ) (i : s.Idx) : Host.negf x i = -(x i) := rfl

/-- A small natural number, written as a 32-bit word and converted to a float, is that number. -/
theorem sitofp_ofNat (n : Nat) (h : n < 2 ^ 31) :
    FloatOps.sitofp (F := Ideal) .f32 (BitVec.ofNat 32 n) = (((n : ℕ) : ℝ) : EReal) := by
  show (((BitVec.ofNat 32 n).toInt : ℝ) : EReal) = _
  rw [Idealize.ShloMosaic.WordArith.toInt_ofNat_small n h]
  rfl

end Pointwise

section Layout
variable {α : Type}

/-! ## The input seen as [16, 5776, 3, 85]: image, grid cell, anchor, attribute -/

/-- The input [16, 255, 76, 76] regrouped as [16, 3, 85, 5776] and then permuted to [16, 5776, 3, 85]: the element at
    image b, cell g, anchor a, attribute t is the input's channel a·85 + t at row g / 76, column g % 76. -/
theorem transpose_reshape_apply (x : S16x255x76x76.Idx → α)
    (h1 : S16x255x76x76.ShapeCasts S16x3x85x5776)
    (h2 : S16x3x85x5776.Transposes [0, 3, 1, 2] S16x5776x3x85)
    (b : Fin 16) (g : Fin 5776) (a : Fin 3) (t : Fin 85) :
    transpose S16x5776x3x85 [0, 3, 1, 2] (shapeCast S16x3x85x5776 x h1) h2 (ix4 b g a t)
      = x (ix4 b ⟨a.val * 85 + t.val, by omega⟩ ⟨g.val / 76, by omega⟩ ⟨g.val % 76, Nat.mod_lt _ (by decide)⟩) := by
  refine (transpose_apply _ _ _ _ (ix4 b a t g)
    (fun c => match c with | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_four]
  show ((b.val * 255 + (a.val * 85 + t.val)) * 76 + g.val / 76) * 76 + g.val % 76
    = ((b.val * 3 + a.val) * 85 + t.val) * 5776 + g.val
  omega

/-! ## Slices of the attribute axis -/

/-- Attributes 0, 1 (the box centre). -/
theorem slice_xy_apply (y : S16x5776x3x85.Idx → α) (h : S16x5776x3x85.Slices ![0, 0, 0, 0] S16x5776x3x2)
    (b : Fin 16) (g : Fin 5776) (a : Fin 3) (k : Fin 2) :
    extractStridedSlice S16x5776x3x2 ![0, 0, 0, 0] y h (ix4 b g a k) = y (ix4 b g a ⟨k.val, by omega⟩) :=
  extractStridedSlice_apply _ _ _ _ _ fun c => match c with
    | ⟨0, _⟩ => by show b.val = 0 + b.val; omega
    | ⟨1, _⟩ => by show g.val = 0 + g.val; omega
    | ⟨2, _⟩ => by show a.val = 0 + a.val; omega
    | ⟨3, _⟩ => by show k.val = 0 + k.val; omega

/-- Attributes 2, 3 (the box size). -/
theorem slice_wh_apply (y : S16x5776x3x85.Idx → α) (h : S16x5776x3x85.Slices ![0, 0, 0, 2] S16x5776x3x2)
    (b : Fin 16) (g : Fin 5776) (a : Fin 3) (k : Fin 2) :
    extractStridedSlice S16x5776x3x2 ![0, 0, 0, 2] y h (ix4 b g a k) = y (ix4 b g a ⟨k.val + 2, by omega⟩) :=
  extractStridedSlice_apply _ _ _ _ _ fun c => match c with
    | ⟨0, _⟩ => by show b.val = 0 + b.val; omega
    | ⟨1, _⟩ => by show g.val = 0 + g.val; omega
    | ⟨2, _⟩ => by show a.val = 0 + a.val; omega
    | ⟨3, _⟩ => by show k.val + 2 = 2 + k.val; omega

/-- Attributes 4 … 84 (objectness and the classes). -/
theorem slice_rest_apply (y : S16x5776x3x85.Idx → α) (h : S16x5776x3x85.Slices ![0, 0, 0, 4] S16x5776x3x81)
    (b : Fin 16) (g : Fin 5776) (a : Fin 3) (k : Fin 81) :
    extractStridedSlice S16x5776x3x81 ![0, 0, 0, 4] y h (ix4 b g a k) = y (ix4 b g a ⟨k.val + 4, by omega⟩) :=
  extractStridedSlice_apply _ _ _ _ _ fun c => match c with
    | ⟨0, _⟩ => by show b.val = 0 + b.val; omega
    | ⟨1, _⟩ => by show g.val = 0 + g.val; omega
    | ⟨2, _⟩ => by show a.val = 0 + a.val; omega
    | ⟨3, _⟩ => by show k.val + 4 = 4 + k.val; omega

/-- Of the two centre attributes, the first (x). -/
theorem slice_x_apply (z : S16x5776x3x2.Idx → α) (h : S16x5776x3x2.Slices ![0, 0, 0, 0] S16x5776x3x1)
    (b : Fin 16) (g : Fin 5776) (a : Fin 3) (k : Fin 1) :
    extractStridedSlice S16x5776x3x1 ![0, 0, 0, 0] z h (ix4 b g a k) = z (ix4 b g a ⟨0, by omega⟩) :=
  extractStridedSlice_apply _ _ _ _ _ fun c => match c with
    | ⟨0, _⟩ => by show b.val = 0 + b.val; omega
    | ⟨1, _⟩ => by show g.val = 0 + g.val; omega
    | ⟨2, _⟩ => by show a.val = 0 + a.val; omega
    | ⟨3, _⟩ => by show 0 = 0 + k.val; omega

/-- Of the two centre attributes, the second (y). -/
theorem slice_y_apply (z : S16x5776x3x2.Idx → α) (h : S16x5776x3x2.Slices ![0, 0, 0, 1] S16x5776x3x1)
    (b : Fin 16) (g : Fin 5776) (a : Fin 3) (k : Fin 1) :
    extractStridedSlice S16x5776x3x1 ![0, 0, 0, 1] z h (ix4 b g a k) = z (ix4 b g a ⟨1, by omega⟩) :=
  extractStridedSlice_apply _ _ _ _ _ fun c => match c with
    | ⟨0, _⟩ => by show b.val = 0 + b.val; omega
    | ⟨1, _⟩ => by show g.val = 0 + g.val; omega
    | ⟨2, _⟩ => by show a.val = 0 + a.val; omega
    | ⟨3, _⟩ => by show 1 = 1 + k.val; omega

/-! ## The trailing unit axis dropped and put back -/

/-- [16, 5776, 3, 1] seen as [16, 5776, 3]. -/
theorem dropUnit_apply (z : S16x5776x3x1.Idx → α) (h : S16x5776x3x1.ShapeCasts S16x5776x3)
    (b : Fin 16) (g : Fin 5776) (a : Fin 3) :
    shapeCast S16x5776x3 z h (ix3 b g a) = z (ix4 b g a ⟨0, by omega⟩) := by
  refine shapeCast_apply _ _ _ _ ?_
  rw [Shape.rowMajor_val_four, Shape.rowMajor_val_three]
  show ((b.val * 5776 + g.val) * 3 + a.val) * 1 + 0 = (b.val * 5776 + g.val) * 3 + a.val
  omega

/-- [16, 5776, 3] broadcast to [16, 5776, 3, 1]. -/
theorem addUnit_apply (w : S16x5776x3.Idx → α)
    (h : S16x5776x3.BroadcastsInDim S16x5776x3x1 (![0, 1, 2] : Fin 3 → Fin S16x5776x3x1.rank))
    (b : Fin 16) (g : Fin 5776) (a : Fin 3) (k : Fin 1) :
    broadcastInDim S16x5776x3x1 ![0, 1, 2] h w (ix4 b g a k) = w (ix3 b g a) :=
  broadcastInDim_apply _ _ _ _ _ fun c => match c with
    | ⟨0, _⟩ => by show b.val = if (16 : Nat) = 1 then 0 else b.val; rfl
    | ⟨1, _⟩ => by show g.val = if (5776 : Nat) = 1 then 0 else g.val; rfl
    | ⟨2, _⟩ => by show a.val = if (3 : Nat) = 1 then 0 else a.val; rfl

/-! ## Broadcasts -/

/-- A scalar broadcast to any shape reads the scalar everywhere. -/
theorem bcastScalar_apply {T : Shape} (h : S_.BroadcastsInDim T (![] : Fin 0 → Fin T.rank)) (v : S_.Idx → α) (j : T.Idx) :
    broadcastInDim T ![] h v j = v ix0 :=
  broadcastInDim_apply _ _ _ _ _ fun c => c.elim0

/-- A per-cell vector [5776] broadcast over images and anchors, [5776] → [1, 5776, 1] → [16, 5776, 3]. -/
theorem bcastCell_apply (v : S5776.Idx → α)
    (h1 : S5776.BroadcastsInDim S1x5776x1 (![1] : Fin 1 → Fin S1x5776x1.rank))
    (h2 : S1x5776x1.BroadcastsInDim S16x5776x3 (![0, 1, 2] : Fin 3 → Fin S16x5776x3.rank))
    (b : Fin 16) (g : Fin 5776) (a : Fin 3) :
    broadcastInDim S16x5776x3 ![0, 1, 2] h2 (broadcastInDim S1x5776x1 ![1] h1 v) (ix3 b g a) = v (ix1 g) := by
  refine (broadcastInDim_apply _ _ _ _ (ix3 ⟨0, Nat.one_pos⟩ g ⟨0, Nat.one_pos⟩) fun c => match c with
    | ⟨0, _⟩ => by show 0 = if (1 : Nat) = 1 then 0 else b.val; rfl
    | ⟨1, _⟩ => by show g.val = if (5776 : Nat) = 1 then 0 else g.val; rfl
    | ⟨2, _⟩ => by show 0 = if (1 : Nat) = 1 then 0 else a.val; rfl).trans ?_
  exact broadcastInDim_apply _ _ _ _ _ fun c => match c with
    | ⟨0, _⟩ => by show g.val = if (5776 : Nat) = 1 then 0 else g.val; rfl

/-- The anchor table [3, 2] broadcast over images and cells, [3, 2] → [1, 1, 3, 2] → [16, 5776, 3, 2]. -/
theorem bcastAnchor_apply (w : S3x2.Idx → α)
    (h1 : S3x2.BroadcastsInDim S1x1x3x2 (![2, 3] : Fin 2 → Fin S1x1x3x2.rank))
    (h2 : S1x1x3x2.BroadcastsInDim S16x5776x3x2 (![0, 1, 2, 3] : Fin 4 → Fin S16x5776x3x2.rank))
    (b : Fin 16) (g : Fin 5776) (a : Fin 3) (k : Fin 2) :
    broadcastInDim S16x5776x3x2 ![0, 1, 2, 3] h2 (broadcastInDim S1x1x3x2 ![2, 3] h1 w) (ix4 b g a k) = w (ix2 a k) := by
  refine (broadcastInDim_apply _ _ _ _ (ix4 ⟨0, Nat.one_pos⟩ ⟨0, Nat.one_pos⟩ a k) fun c => match c with
    | ⟨0, _⟩ => by show 0 = if (1 : Nat) = 1 then 0 else b.val; rfl
    | ⟨1, _⟩ => by show 0 = if (1 : Nat) = 1 then 0 else g.val; rfl
    | ⟨2, _⟩ => by show a.val = if (3 : Nat) = 1 then 0 else a.val; rfl
    | ⟨3, _⟩ => by show k.val = if (2 : Nat) = 1 then 0 else k.val; rfl).trans ?_
  exact broadcastInDim_apply _ _ _ _ _ fun c => match c with
    | ⟨0, _⟩ => by show a.val = if (3 : Nat) = 1 then 0 else a.val; rfl
    | ⟨1, _⟩ => by show k.val = if (2 : Nat) = 1 then 0 else k.val; rfl

/-! ## The grid's row and column numbers per cell -/

/-- The row number of cell g: the iota along the rows of the 76 × 76 grid, flattened. -/
theorem gridRow_apply (h1 : S76.BroadcastsInDim S76x76 (![0] : Fin 1 → Fin S76x76.rank)) (h2 : S76x76.ShapeCasts S5776)
    (g : Fin 5776) :
    shapeCast S5776 (broadcastInDim S76x76 ![0] h1 (iotaInDim S76 32 0)) h2 (ix1 g) = BitVec.ofNat 32 (g.val / 76) := by
  refine (shapeCast_apply _ _ _ (ix2 ⟨g.val / 76, by omega⟩ ⟨g.val % 76, Nat.mod_lt _ (by decide)⟩) ?_).trans ?_
  · rw [Shape.rowMajor_val_two, Shape.rowMajor_val_one]
    show g.val / 76 * 76 + g.val % 76 = g.val
    omega
  · refine (broadcastInDim_apply _ _ _ _ (ix1 ⟨g.val / 76, by omega⟩) fun c => match c with
      | ⟨0, _⟩ => by show g.val / 76 = if (76 : Nat) = 1 then 0 else g.val / 76; rfl).trans ?_
    rfl

/-- The column number of cell g: the iota along the columns of the 76 × 76 grid, flattened. -/
theorem gridCol_apply (h1 : S76.BroadcastsInDim S76x76 (![1] : Fin 1 → Fin S76x76.rank)) (h2 : S76x76.ShapeCasts S5776)
    (g : Fin 5776) :
    shapeCast S5776 (broadcastInDim S76x76 ![1] h1 (iotaInDim S76 32 0)) h2 (ix1 g) = BitVec.ofNat 32 (g.val % 76) := by
  refine (shapeCast_apply _ _ _ (ix2 ⟨g.val / 76, by omega⟩ ⟨g.val % 76, Nat.mod_lt _ (by decide)⟩) ?_).trans ?_
  · rw [Shape.rowMajor_val_two, Shape.rowMajor_val_one]
    show g.val / 76 * 76 + g.val % 76 = g.val
    omega
  · refine (broadcastInDim_apply _ _ _ _ (ix1 ⟨g.val % 76, Nat.mod_lt _ (by decide)⟩) fun c => match c with
      | ⟨0, _⟩ => by show g.val % 76 = if (76 : Nat) = 1 then 0 else g.val % 76; rfl).trans ?_
    rfl

/-! ## The four pieces joined along the attribute axis -/

/-- Attribute 0 is the first piece. -/
theorem concat_apply_x (p0 p1 : S16x5776x3x1.Idx → α) (p2 : S16x5776x3x2.Idx → α) (p3 : S16x5776x3x81.Idx → α)
    (h : Shape.Concatenates [S16x5776x3x1, S16x5776x3x1, S16x5776x3x2, S16x5776x3x81] S16x5776x3x85 3)
    (b : Fin 16) (g : Fin 5776) (a : Fin 3) :
    concatenate S16x5776x3x85 3 [⟨S16x5776x3x1, p0⟩, ⟨S16x5776x3x1, p1⟩, ⟨S16x5776x3x2, p2⟩, ⟨S16x5776x3x81, p3⟩] h
        (ix4 b g a ⟨0, by omega⟩)
      = p0 (ix4 b g a ⟨0, by omega⟩) :=
  concatenate_apply_piece (t := S16x5776x3x85) 3 [⟨S16x5776x3x1, p0⟩, ⟨S16x5776x3x1, p1⟩, ⟨S16x5776x3x2, p2⟩, ⟨S16x5776x3x81, p3⟩] h _ 0 (by show (0 : Nat) < 4; omega) S16x5776x3x1 p0 rfl rfl 0 rfl (ix4 b g a ⟨0, by omega⟩)
    (fun c hc => match c with
      | ⟨0, _⟩ => rfl
      | ⟨1, _⟩ => rfl
      | ⟨2, _⟩ => rfl
      | ⟨3, _⟩ => absurd rfl hc)
    rfl

/-- Attribute 1 is the second piece. -/
theorem concat_apply_y (p0 p1 : S16x5776x3x1.Idx → α) (p2 : S16x5776x3x2.Idx → α) (p3 : S16x5776x3x81.Idx → α)
    (h : Shape.Concatenates [S16x5776x3x1, S16x5776x3x1, S16x5776x3x2, S16x5776x3x81] S16x5776x3x85 3)
    (b : Fin 16) (g : Fin 5776) (a : Fin 3) :
    concatenate S16x5776x3x85 3 [⟨S16x5776x3x1, p0⟩, ⟨S16x5776x3x1, p1⟩, ⟨S16x5776x3x2, p2⟩, ⟨S16x5776x3x81, p3⟩] h
        (ix4 b g a ⟨1, by omega⟩)
      = p1 (ix4 b g a ⟨0, by omega⟩) :=
  concatenate_apply_piece (t := S16x5776x3x85) 3 [⟨S16x5776x3x1, p0⟩, ⟨S16x5776x3x1, p1⟩, ⟨S16x5776x3x2, p2⟩, ⟨S16x5776x3x81, p3⟩] h _ 1 (by show (1 : Nat) < 4; omega) S16x5776x3x1 p1 rfl rfl 1 rfl (ix4 b g a ⟨0, by omega⟩)
    (fun c hc => match c with
      | ⟨0, _⟩ => rfl
      | ⟨1, _⟩ => rfl
      | ⟨2, _⟩ => rfl
      | ⟨3, _⟩ => absurd rfl hc)
    rfl

/-- Attributes 2, 3 are the third piece. -/
theorem concat_apply_wh (p0 p1 : S16x5776x3x1.Idx → α) (p2 : S16x5776x3x2.Idx → α) (p3 : S16x5776x3x81.Idx → α)
    (h : Shape.Concatenates [S16x5776x3x1, S16x5776x3x1, S16x5776x3x2, S16x5776x3x81] S16x5776x3x85 3)
    (b : Fin 16) (g : Fin 5776) (a : Fin 3) (k : Fin 2) :
    concatenate S16x5776x3x85 3 [⟨S16x5776x3x1, p0⟩, ⟨S16x5776x3x1, p1⟩, ⟨S16x5776x3x2, p2⟩, ⟨S16x5776x3x81, p3⟩] h
        (ix4 b g a ⟨k.val + 2, by omega⟩)
      = p2 (ix4 b g a k) :=
  concatenate_apply_piece (t := S16x5776x3x85) 3 [⟨S16x5776x3x1, p0⟩, ⟨S16x5776x3x1, p1⟩, ⟨S16x5776x3x2, p2⟩, ⟨S16x5776x3x81, p3⟩] h _ 2 (by show (2 : Nat) < 4; omega) S16x5776x3x2 p2 rfl rfl 2 rfl (ix4 b g a k)
    (fun c hc => match c with
      | ⟨0, _⟩ => rfl
      | ⟨1, _⟩ => rfl
      | ⟨2, _⟩ => rfl
      | ⟨3, _⟩ => absurd rfl hc)
    (by show 2 + k.val = k.val + 2; omega)

/-- Attributes 4 … 84 are the fourth piece. -/
theorem concat_apply_rest (p0 p1 : S16x5776x3x1.Idx → α) (p2 : S16x5776x3x2.Idx → α) (p3 : S16x5776x3x81.Idx → α)
    (h : Shape.Concatenates [S16x5776x3x1, S16x5776x3x1, S16x5776x3x2, S16x5776x3x81] S16x5776x3x85 3)
    (b : Fin 16) (g : Fin 5776) (a : Fin 3) (k : Fin 81) :
    concatenate S16x5776x3x85 3 [⟨S16x5776x3x1, p0⟩, ⟨S16x5776x3x1, p1⟩, ⟨S16x5776x3x2, p2⟩, ⟨S16x5776x3x81, p3⟩] h
        (ix4 b g a ⟨k.val + 4, by omega⟩)
      = p3 (ix4 b g a k) :=
  concatenate_apply_piece (t := S16x5776x3x85) 3 [⟨S16x5776x3x1, p0⟩, ⟨S16x5776x3x1, p1⟩, ⟨S16x5776x3x2, p2⟩, ⟨S16x5776x3x81, p3⟩] h _ 3 (by show (3 : Nat) < 4; omega) S16x5776x3x81 p3 rfl rfl 4 rfl (ix4 b g a k)
    (fun c hc => match c with
      | ⟨0, _⟩ => rfl
      | ⟨1, _⟩ => rfl
      | ⟨2, _⟩ => rfl
      | ⟨3, _⟩ => absurd rfl hc)
    (by show 4 + k.val = k.val + 4; omega)

/-! ## The result regrouped as [16, 17328, 85] -/

/-- Row n of the result is cell n / 3, anchor n % 3. -/
theorem outReshape_apply (w : S16x5776x3x85.Idx → α) (h : S16x5776x3x85.ShapeCasts S16x17328x85)
    (b : Fin 16) (n : Fin 17328) (t : Fin 85) :
    shapeCast S16x17328x85 w h (ix3 b n t)
      = w (ix4 b ⟨n.val / 3, by omega⟩ ⟨n.val % 3, Nat.mod_lt _ (by decide)⟩ t) := by
  refine shapeCast_apply _ _ _ _ ?_
  rw [Shape.rowMajor_val_four, Shape.rowMajor_val_three]
  show ((b.val * 5776 + n.val / 3) * 3 + n.val % 3) * 85 + t.val = (b.val * 17328 + n.val) * 85 + t.val
  omega

end Layout

end Cert.ReferenceIdeal.Decode

end
-- ==== Proof.RValue.lean ====
/-
  The reference's result array, element by element.

  After the reference's seventy-five operations the result buffer [16, 17328, 85] holds, at image b, row n,
  attribute t, the statement's value rval: with v the input element of channel (n % 3)·85 + t at grid row
  n / 3 / 76 and column n / 3 % 76, S the stride and σ the host's sigmoid,
    t = 0 : ((σ v · 1 − 0) + column) · S        t = 1 : ((σ v · 1 − 0) + row) · S
    t = 2, 3 : (e^v · (anchor[n % 3][t − 2] / S)) · S        t ≥ 4 : σ v.
  The proof reads the fold of the operations at the result buffer from the outside in: the closing regrouping,
  then the join of the four pieces along the attribute axis, where the attribute decides the piece, then that
  piece's own chain of slices, broadcasts and pointwise operations down to the input element, the grid offset,
  the anchor table and the stride.  Nothing is simplified: the statement spells each attribute's value as the
  program computes it, so both sides are taken apart operation by operation and their leaves compared.  The
  stride is the printed floor division on the 32-bit word, the same term on both sides.
-/
import proofs.«131963_g56642028700200_fold_wed_c4_437_7_alg».proof.Proof.RRun
import proofs.«131963_g56642028700200_fold_wed_c4_437_7_alg».proof.Proof.RRead
import proofs.«131963_g56642028700200_fold_wed_c4_437_7_alg».proof.Proof.Spec

noncomputable section

namespace Cert.ReferenceIdeal.Decode

open Cert.ReferenceIdeal Idealize.ShloMosaic Idealize.ShloMosaic.ValueIdx Idealize.ShloMosaic.TcCoe
open Idealize.ShloMosaic.StableHlo Idealize.SL.Sem

/-! ## The statement's side: one element of the reference's result, by attribute -/

section SpecSide
open Cert.Spec

/-- The result at image b, row n, attribute t: the input element, the grid column and row and the anchor
    are those of cell n / 3 and anchor n % 3. -/
theorem outR_ix3 (A : Fin 3 → Fin 2 → EReal) (x : SX.Idx → EReal) (d : IVec SS 32)
    (b : Fin 16) (n : Fin 17328) (t : Fin 85) :
    outR A x d (ix3 b n t)
      = rval A (x (ix4 b ⟨n.val % 3 * 85 + t.val, by omega⟩ ⟨n.val / 3 / 76, by omega⟩
            ⟨n.val / 3 % 76, Nat.mod_lt _ (by decide)⟩))
          (stride d) (((n.val / 3 % 76 : ℕ) : ℝ) : EReal) (((n.val / 3 / 76 : ℕ) : ℝ) : EReal)
          ⟨n.val % 3, Nat.mod_lt _ (by decide)⟩ t := rfl

variable (A : Fin 3 → Fin 2 → EReal) (v S fx fy : EReal) (a : Fin 3)

/-- Attribute 0: the x offset. -/
theorem rval_x (h : 0 < 85) : rval A v S fx fy a ⟨0, h⟩ = ((sigH v * one - zero) + fx) * S := by
  unfold rval
  exact if_pos rfl

/-- Attribute 1: the y offset. -/
theorem rval_y (h : 1 < 85) : rval A v S fx fy a ⟨1, h⟩ = ((sigH v * one - zero) + fy) * S := by
  unfold rval
  have h0 : ¬ ((⟨1, h⟩ : Fin 85).val = 0) := by show ¬ (1 = 0); omega
  rw [if_neg h0]
  exact if_pos rfl

/-- Attributes 2 and 3: the box sizes. -/
theorem rval_wh (k : Fin 2) (h : k.val + 2 < 85) :
    rval A v S fx fy a ⟨k.val + 2, h⟩ = (Ideal.exp v * Ideal.div (A a k) S) * S := by
  unfold rval
  have h0 : ¬ ((⟨k.val + 2, h⟩ : Fin 85).val = 0) := by show ¬ (k.val + 2 = 0); omega
  have h1 : ¬ ((⟨k.val + 2, h⟩ : Fin 85).val = 1) := by show ¬ (k.val + 2 = 1); omega
  have h4 : (⟨k.val + 2, h⟩ : Fin 85).val < 4 := by show k.val + 2 < 4; omega
  rw [if_neg h0, if_neg h1, dif_pos h4]
  rfl

/-- Attributes 4 to 84: the sigmoid alone. -/
theorem rval_rest (k : Fin 81) (h : k.val + 4 < 85) : rval A v S fx fy a ⟨k.val + 4, h⟩ = sigH v := by
  unfold rval
  have h0 : ¬ ((⟨k.val + 4, h⟩ : Fin 85).val = 0) := by show ¬ (k.val + 4 = 0); omega
  have h1 : ¬ ((⟨k.val + 4, h⟩ : Fin 85).val = 1) := by show ¬ (k.val + 4 = 1); omega
  have h4 : ¬ ((⟨k.val + 4, h⟩ : Fin 85).val < 4) := by show ¬ (k.val + 4 < 4); omega
  rw [if_neg h0, if_neg h1, dif_neg h4]

end SpecSide

/-! ## Equal operands give equal results -/

theorem mul_congr {p p' q q' : EReal} (h₁ : p = p') (h₂ : q = q') : p * q = p' * q' := by rw [h₁, h₂]
theorem add_congr {p p' q q' : EReal} (h₁ : p = p') (h₂ : q = q') : p + q = p' + q' := by rw [h₁, h₂]
theorem div_congr {p p' q q' : EReal} (h₁ : p = p') (h₂ : q = q') : Ideal.div p q = Ideal.div p' q' := by rw [h₁, h₂]

/-! ## The program's stages at one element -/

section Stages

/-- The host's sigmoid of an array at an element: one over one plus the exponential of the negated element. -/
theorem sigmoid_apply {T : Shape} (y : FVec Ideal T .f32)
    (h h' : S_.BroadcastsInDim T (![] : Fin 0 → Fin T.rank)) (i : T.Idx) :
    Host.divf (F := Ideal) (broadcastInDim T ![] h (constant (F := Ideal) S_ .f32 0x3F800000#32))
        (addf (broadcastInDim T ![] h' (constant (F := Ideal) S_ .f32 0x3F800000#32)) (Host.exp (Host.negf y))) i
      = Cert.Spec.sigH (y i) := by
  rw [hostDivf_apply, addf_apply, hostExp_apply, hostNegf_apply, bcastScalar_apply, constant_apply]
  rfl

/-- The box-centre stage at an element: the sigmoid of the attribute, times one, less zero. -/
theorem centre_apply (y : FVec Ideal S16x5776x3x85 .f32)
    (hs : S16x5776x3x85.Slices ![0, 0, 0, 0] S16x5776x3x2)
    (h1 h2 h3 h4 : S_.BroadcastsInDim S16x5776x3x2 (![] : Fin 0 → Fin S16x5776x3x2.rank))
    (b : Fin 16) (g : Fin 5776) (a : Fin 3) (k : Fin 2) :
    subf
        (mulf
          (Host.divf (F := Ideal) (broadcastInDim S16x5776x3x2 ![] h1 (constant (F := Ideal) S_ .f32 0x3F800000#32))
            (addf (broadcastInDim S16x5776x3x2 ![] h2 (constant (F := Ideal) S_ .f32 0x3F800000#32))
              (Host.exp (Host.negf (extractStridedSlice S16x5776x3x2 ![0, 0, 0, 0] y hs)))))
          (broadcastInDim S16x5776x3x2 ![] h3 (constant (F := Ideal) S_ .f32 0x3F800000#32)))
        (broadcastInDim S16x5776x3x2 ![] h4 (constant (F := Ideal) S_ .f32 0x00000000#32)) (ix4 b g a k)
      = Cert.Spec.sigH (y (ix4 b g a ⟨k.val, by omega⟩)) * Cert.Spec.one - Cert.Spec.zero := by
  rw [subf_apply, mulf_apply, sigmoid_apply, slice_xy_apply, bcastScalar_apply, bcastScalar_apply, constant_apply,
    constant_apply]

/-- The grid column of a cell as a float, spread over images and anchors. -/
theorem cellCol_apply (h1 : S76.BroadcastsInDim S76x76 (![1] : Fin 1 → Fin S76x76.rank)) (h2 : S76x76.ShapeCasts S5776)
    (h3 : S5776.BroadcastsInDim S1x5776x1 (![1] : Fin 1 → Fin S1x5776x1.rank))
    (h4 : S1x5776x1.BroadcastsInDim S16x5776x3 (![0, 1, 2] : Fin 3 → Fin S16x5776x3.rank))
    (b : Fin 16) (g : Fin 5776) (a : Fin 3) :
    broadcastInDim S16x5776x3 ![0, 1, 2] h4 (broadcastInDim S1x5776x1 ![1] h3
        (sitofp (F := Ideal) .f32 (shapeCast S5776 (broadcastInDim S76x76 ![1] h1 (iotaInDim S76 32 0)) h2))) (ix3 b g a)
      = (((g.val % 76 : ℕ) : ℝ) : EReal) := by
  rw [bcastCell_apply, sitofp_apply, gridCol_apply]
  exact sitofp_ofNat _ (by omega)

/-- The grid row of a cell as a float, spread over images and anchors. -/
theorem cellRow_apply (h1 : S76.BroadcastsInDim S76x76 (![0] : Fin 1 → Fin S76x76.rank)) (h2 : S76x76.ShapeCasts S5776)
    (h3 : S5776.BroadcastsInDim S1x5776x1 (![1] : Fin 1 → Fin S1x5776x1.rank))
    (h4 : S1x5776x1.BroadcastsInDim S16x5776x3 (![0, 1, 2] : Fin 3 → Fin S16x5776x3.rank))
    (b : Fin 16) (g : Fin 5776) (a : Fin 3) :
    broadcastInDim S16x5776x3 ![0, 1, 2] h4 (broadcastInDim S1x5776x1 ![1] h3
        (sitofp (F := Ideal) .f32 (shapeCast S5776 (broadcastInDim S76x76 ![0] h1 (iotaInDim S76 32 0)) h2))) (ix3 b g a)
      = (((g.val / 76 : ℕ) : ℝ) : EReal) := by
  rw [bcastCell_apply, sitofp_apply, gridRow_apply]
  exact sitofp_ofNat _ (by omega)

end Stages

/-! ## The fold at the result buffer -/

variable [Cert.ReferenceIdeal.Facts]

set_option maxHeartbeats 2000000 in
/-- The reference's result buffer after its operations holds, at every element, the statement's value: the fold
    read back at the result is the regrouping of the four joined pieces; an element of the result lies in exactly
    one piece, by its attribute, and there the operations are read one at a time down to the input element, the
    grid offset, the anchor and the stride. -/
theorem out_eq (V : Valuation τ sig (Elt Ideal)) :
    (StableHlo.after (ops (F := Ideal)) V (main_v55 : DevRef τ sig) : S16x17328x85.Idx → EReal)
      = Cert.Spec.outR (fun a k => Ideal.ofBits .f32 (lit0 (S3x2.rowMajor (ix2 a k))))
          (V (main_arg0 : DevRef τ sig)) (V (main_arg1 : DevRef τ sig)) := by
  after_results_simp
  funext j
  obtain ⟨b, n, ⟨tv, ht⟩, rfl⟩ : ∃ (b : Fin 16) (n : Fin 17328) (t : Fin 85), j = ix3 b n t :=
    ⟨j 0, j 1, j 2, eq_ix3 j⟩
  rw [outR_ix3]
  refine (outReshape_apply _ _ b n _).trans ?_
  by_cases h0 : tv = 0
  · -- attribute 0
    subst h0
    rw [rval_x]
    refine (concat_apply_x _ _ _ _ _ b _ _).trans ?_
    simp only [Matrix.cons_val]
    after_results_simp
    refine (addUnit_apply _ _ b _ _ _).trans ?_
    refine (mulf_apply _ _ _).trans (mul_congr ?_ ?_)
    · refine (addf_apply _ _ _).trans (add_congr ?_ ?_)
      · refine (dropUnit_apply _ _ b _ _).trans ?_
        refine (slice_x_apply _ _ b _ _ _).trans ?_
        refine (centre_apply _ _ _ _ _ _ b _ _ _).trans ?_
        exact congrArg (fun v => Cert.Spec.sigH v * Cert.Spec.one - Cert.Spec.zero)
          (transpose_reshape_apply _ _ _ b _ _ _)
      · exact cellCol_apply _ _ _ _ b _ _
    · refine (bcastScalar_apply _ _ _).trans ?_
      rfl
  by_cases h1 : tv = 1
  · -- attribute 1
    subst h1
    rw [rval_y]
    refine (concat_apply_y _ _ _ _ _ b _ _).trans ?_
    simp only [Matrix.cons_val]
    after_results_simp
    refine (addUnit_apply _ _ b _ _ _).trans ?_
    refine (mulf_apply _ _ _).trans (mul_congr ?_ ?_)
    · refine (addf_apply _ _ _).trans (add_congr ?_ ?_)
      · refine (dropUnit_apply _ _ b _ _).trans ?_
        refine (slice_y_apply _ _ b _ _ _).trans ?_
        refine (centre_apply _ _ _ _ _ _ b _ _ _).trans ?_
        exact congrArg (fun v => Cert.Spec.sigH v * Cert.Spec.one - Cert.Spec.zero)
          (transpose_reshape_apply _ _ _ b _ _ _)
      · exact cellRow_apply _ _ _ _ b _ _
    · refine (bcastScalar_apply _ _ _).trans ?_
      rfl
  by_cases h4 : tv < 4
  · -- attributes 2 and 3
    obtain ⟨k, rfl⟩ : ∃ k : Nat, tv = k + 2 := ⟨tv - 2, by omega⟩
    have hk : k < 2 := by omega
    refine Eq.trans ?_ (rval_wh _ _ _ _ _ _ ⟨k, hk⟩ ht).symm
    refine (concat_apply_wh _ _ _ _ _ b _ _ ⟨k, hk⟩).trans ?_
    simp only [Matrix.cons_val]
    after_results_simp
    refine (mulf_apply _ _ _).trans (mul_congr ?_ ?_)
    · refine (mulf_apply _ _ _).trans (mul_congr ?_ ?_)
      · refine (hostExp_apply _ _).trans (congrArg Ideal.exp ?_)
        refine (slice_wh_apply _ _ b _ _ _).trans ?_
        exact transpose_reshape_apply _ _ _ b _ _ _
      · refine (bcastAnchor_apply _ _ _ b _ _ _).trans ?_
        refine (hostDivf_apply _ _ _).trans (div_congr ?_ ?_)
        · rfl
        · refine (bcastScalar_apply _ _ _).trans ?_
          rfl
    · refine (bcastScalar_apply _ _ _).trans ?_
      rfl
  · -- attributes 4 to 84
    obtain ⟨k, rfl⟩ : ∃ k : Nat, tv = k + 4 := ⟨tv - 4, by omega⟩
    have hk : k < 81 := by omega
    refine Eq.trans ?_ (rval_rest _ _ _ _ _ _ ⟨k, hk⟩ ht).symm
    refine (concat_apply_rest _ _ _ _ _ b _ _ ⟨k, hk⟩).trans ?_
    simp only [Matrix.cons_val]
    after_results_simp
    refine (sigmoid_apply _ _ _ _).trans (congrArg Cert.Spec.sigH ?_)
    refine (slice_rest_apply _ _ b _ _ _).trans ?_
    exact transpose_reshape_apply _ _ _ b _ _ _

/-- Every fair execution of the reference from a memory with zero counters ends with the result buffer at the
    statement's value of the launched argument arrays, and with both argument arrays as launched: the run leaves each
    buffer at the fold of the operations over the launch contents, the fold at the result buffer is the statement's
    value, and no operation writes an argument. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = Cert.Spec.outR (fun a k => Ideal.ofBits .f32 (lit0 (S3x2.rowMajor (ix2 a k)))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r hr c =>
      ⟨(hr c main_v55).trans (out_eq (StableHlo.launchContents m c)),
        (hr c main_arg0).trans (arg0_kept (StableHlo.launchContents m c)),
        (hr c main_arg1).trans (arg1_kept (StableHlo.launchContents m c))⟩)
    (run_main m ρ)

end Cert.ReferenceIdeal.Decode

end
-- ==== Proof.PreFacts.lean ====
/-
  What the precondition says of the two inputs.

  The precondition is the conjunction of two bits.  The first is the `and` over the whole input array of the
  elementwise test `|x| < +∞`, started from 1; when it is 1 every element passed the test, and an extended real
  whose absolute value `max v (−v)` lies strictly below `⊤` is neither `⊤` nor `⊥`: it is a real.  The second bit
  compares the floor quotient `input_dim // 76` with the zero word; when it is 1 that word is not zero, so its signed
  value is a nonzero integer and the stride, that integer read as an extended real, is a nonzero real.
-/
import proofs.«131963_g56642028700200_fold_wed_c4_437_7_alg».proof.Pre_finite_inputs
import proofs.«131963_g56642028700200_fold_wed_c4_437_7_alg».proof.Proof.Spec
import Idealize.ShloMosaic.Lib.ReduceAll
import Idealize.ShloMosaic.Lib.ValueIdx
import Idealize.ShloMosaic.PureOps.Ideal

namespace Cert.Pre_finite_inputs.Decode

open Cert.Pre_finite_inputs Idealize.ShloMosaic Idealize.ShloMosaic.ValueIdx

variable [Cert.Pre_finite_inputs.Facts]

/-- The scalar shape has exactly one index. -/
instance scalarIdxSubsingleton : Subsingleton S_.Idx := ⟨fun a b => funext fun d => d.elim0⟩

/-- The float word `0x7F800000` denotes `+∞`. -/
theorem posInf_word : Ideal.ofBits .f32 0x7F800000#32 = (⊤ : EReal) := by
  simp [Ideal.ofBits, Ideal.ieee]

/-- An extended real whose absolute value `max v (−v)` is strictly below `⊤` is a real: `⊤` fails by its first
    operand, `⊥` by its second (`−⊥ = ⊤`). -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- A comparison bit `a < b` that is 1 says `a < b`. -/
theorem lt_of_cmp_olt {a b : EReal} (h : Ideal.cmp .olt a b = 1#1) : a < b := by
  change BitVec.ofBool (decide (a < b)) = 1#1 at h
  by_contra hn
  rw [decide_eq_false hn] at h
  exact absurd h (by decide)

/-- The precondition's two bits, each 1: the whole-array `and` of the finiteness tests, and the test that the
    floor quotient is not the zero word. -/
theorem bits_of_pre (x : FVec Ideal S16x255x76x76 .f32) (d : IVec S_ 32) (h : fn (F := Ideal) x d = fun _ => 1#1) :
    (∀ i : S16x255x76x76.Idx, Ideal.cmp .olt (max (x i) (-(x i))) (Ideal.ofBits .f32 0x7F800000#32) = 1#1)
      ∧ IntOp.cmpi .ne (Cert.Spec.strideWord d ix0) 0#32 = 1#1 := by
  have h0 := congrFun h ix0
  dsimp only [fn] at h0
  obtain ⟨hall, hne⟩ := IntOp.andi_eq_one.1 h0
  exact ⟨fun i => Host.reduce_andi_all _ _ _ _ ix0 hall i, hne⟩

/-- Under the precondition every input element is a real. -/
theorem finite_of_pre (x : FVec Ideal S16x255x76x76 .f32) (d : IVec S_ 32) (h : fn (F := Ideal) x d = fun _ => 1#1) :
    ∀ i, ∃ r : ℝ, x i = (r : EReal) := fun i => by
  have hlt := lt_of_cmp_olt ((bits_of_pre x d h).1 i)
  rw [posInf_word] at hlt
  exact real_of_abs_lt_top (x i) hlt

/-- Under the precondition the floor quotient `input_dim // 76` is not the zero word. -/
theorem stride_ne_zero_of_pre (x : FVec Ideal S16x255x76x76 .f32) (d : IVec S_ 32)
    (h : fn (F := Ideal) x d = fun _ => 1#1) : Cert.Spec.strideWord d ix0 ≠ 0#32 :=
  IntOp.cmpi_ne.1 (bits_of_pre x d h).2

/-- A nonzero stride word reads signed as a nonzero integer, so the stride is a nonzero real. -/
theorem stride_real (d : IVec S_ 32) (h : Cert.Spec.strideWord d ix0 ≠ 0#32) :
    ∃ s : ℝ, s ≠ 0 ∧ Cert.Spec.stride d = (s : EReal) := by
  refine ⟨((Cert.Spec.strideWord d ix0).toInt : ℝ), ?_, rfl⟩
  refine Int.cast_ne_zero.2 fun hz => h ?_
  exact BitVec.toInt_inj.1 (hz.trans BitVec.toInt_zero.symm)

end Cert.Pre_finite_inputs.Decode
-- ==== Proof.Algebra.lean ====
/-
  The kernel's one formula and the reference's piecewise one agree, attribute by attribute, on finite inputs with a
  nonzero stride.  Every quantity is then a real number, so each case is an identity of real arithmetic:
    x, y offsets : (σ + 0·(e − σ))·(1·(1 − 1) + S·1) + (1·S)·f + (0·S)·f' = ((σ·1 − 0) + f)·S
    box sizes    : (σ + 1·(e − σ))·(A·(1 − 0) + S·0) + (0·S)·f + (0·S)·f' = (e·(A / S))·S      (S ≠ 0)
    the rest     : (σ + 0·(e − σ))·(1·(1 − 0) + S·0) + (0·S)·f + (0·S)·f' = σ
  where the kernel's per-channel tables take the values 0, 1 and the anchor sizes according to the attribute
  `t = c mod 85` and the anchor `a = c div 85` of channel `c`.
-/
import proofs.«131963_g56642028700200_fold_wed_c4_437_7_alg».proof.Proof.Spec
import Idealize.ShloMosaic.PureOps.Ideal.Laws
import Mathlib.Data.EReal.Basic
import Mathlib.Tactic.Ring
import Mathlib.Tactic.FieldSimp
import Mathlib.Tactic.NormNum

noncomputable section

namespace Cert.Spec

open Idealize.ShloMosaic Idealize.ShloMosaic.ValueIdx

/-- The word `1.0` denotes the real one, the word `0.0` zero. -/
theorem one_eq : one = 1 := by
  simp [one, Ideal.ofBits, Ideal.ieee, -EReal.coe_mul]; norm_num
theorem zero_eq : zero = 0 := by
  simp [zero, Ideal.ofBits, Ideal.ieee]

/-- The host's spelling of the sigmoid is the kernel's. -/
theorem sigH_eq (v : EReal) : sigH v = Ideal.logistic v := by
  unfold sigH Ideal.logistic; rw [one_eq]

/-- The sigmoid and the exponential of a real are reals. -/
theorem logistic_real (r : ℝ) : Ideal.logistic (r : EReal) = (((1 + Real.exp (-r))⁻¹ : ℝ) : EReal) := Ideal.logistic_coe r
theorem exp_real (r : ℝ) : Ideal.exp (r : EReal) = ((Real.exp r : ℝ) : EReal) := rfl

/-! ## The three cases, over reals -/

/-- An offset channel (`t = 0` with `f` the column, `t = 1` with `f` the row): is-x-or-y `1`, multiplier `1`, uses-exp
    `0`, and the scale `1` on `f`'s side, `0` on the other's. -/
theorem kval_offset_x (r s f f' : ℝ) :
    kval (r : EReal) (s : EReal) 1 1 0 1 0 (f : EReal) (f' : EReal)
      = ((Ideal.logistic (r : EReal) * 1 - 0) + (f : EReal)) * (s : EReal) := by
  unfold kval kpt
  rw [one_eq, logistic_real, exp_real]
  rw [show (1 : EReal) = ((1 : ℝ) : EReal) from rfl, show (0 : EReal) = ((0 : ℝ) : EReal) from rfl]
  simp only [← EReal.coe_mul, ← EReal.coe_add, ← EReal.coe_sub]
  congr 1; ring

theorem kval_offset_y (r s f f' : ℝ) :
    kval (r : EReal) (s : EReal) 1 1 0 0 1 (f' : EReal) (f : EReal)
      = ((Ideal.logistic (r : EReal) * 1 - 0) + (f : EReal)) * (s : EReal) := by
  unfold kval kpt
  rw [one_eq, logistic_real, exp_real]
  rw [show (1 : EReal) = ((1 : ℝ) : EReal) from rfl, show (0 : EReal) = ((0 : ℝ) : EReal) from rfl]
  simp only [← EReal.coe_mul, ← EReal.coe_add, ← EReal.coe_sub]
  congr 1; ring

/-- A box-size channel: is-x-or-y `0`, multiplier the anchor size `A`, uses-exp `1`, no offsets; the reference divides the
    anchor by the stride and multiplies by it again. -/
theorem kval_size (r s A f f' : ℝ) (hs : s ≠ 0) :
    kval (r : EReal) (s : EReal) 0 (A : EReal) 1 0 0 (f : EReal) (f' : EReal)
      = (Ideal.exp (r : EReal) * Ideal.div (A : EReal) (s : EReal)) * (s : EReal) := by
  unfold kval kpt
  rw [one_eq, logistic_real, exp_real, Ideal.div_coe hs]
  rw [show (1 : EReal) = ((1 : ℝ) : EReal) from rfl, show (0 : EReal) = ((0 : ℝ) : EReal) from rfl]
  simp only [← EReal.coe_mul, ← EReal.coe_add, ← EReal.coe_sub]
  congr 1; field_simp; ring

/-- Any other channel: everything off, multiplier `1`. -/
theorem kval_rest (r s f f' : ℝ) :
    kval (r : EReal) (s : EReal) 0 1 0 0 0 (f : EReal) (f' : EReal) = Ideal.logistic (r : EReal) := by
  unfold kval kpt
  rw [one_eq, logistic_real, exp_real]
  rw [show (1 : EReal) = ((1 : ℝ) : EReal) from rfl, show (0 : EReal) = ((0 : ℝ) : EReal) from rfl]
  simp only [← EReal.coe_mul, ← EReal.coe_add, ← EReal.coe_sub]
  congr 1; ring

/-! ## Channel `c = a·85 + t`: its attribute and its anchor -/

theorem oC_mod (j : SOut.Idx) : (oC j).val % 85 = (oT j).val := by
  have := idx_lt2 j
  show ((j 1).val % 3 * 85 + (j 2).val) % 85 = (j 2).val
  omega

theorem oC_val (j : SOut.Idx) : (oC j).val = (oA j).val * 85 + (oT j).val := rfl

/-! ## The two forms agree -/

/-- On finite inputs with a nonzero stride the kernel's array is the reference's, given what the kernel's five tables
    hold channel by channel: is-x-or-y is `1` on attributes 0 and 1; the multiplier is the anchor's width on attribute 2,
    its height on attribute 3, else `1`; uses-exp is `1` on attributes 2 and 3; is-x on attribute 0; is-y on attribute 1;
    every other entry `0`. -/
theorem outK_eq_outR (T0 T1 T2 T3 T4 : Fin 255 → EReal) (A : Fin 3 → Fin 2 → EReal)
    (hT0 : ∀ c : Fin 255, T0 c = if c.val % 85 < 2 then 1 else 0)
    (hT1s : ∀ (a : Fin 3) (k : Fin 2), T1 ⟨a.val * 85 + (2 + k.val), by have := a.isLt; have := k.isLt; omega⟩ = A a k)
    (hT1o : ∀ c : Fin 255, ¬(c.val % 85 = 2 ∨ c.val % 85 = 3) → T1 c = 1)
    (hT2 : ∀ c : Fin 255, T2 c = if c.val % 85 = 2 ∨ c.val % 85 = 3 then 1 else 0)
    (hT3 : ∀ c : Fin 255, T3 c = if c.val % 85 = 0 then 1 else 0)
    (hT4 : ∀ c : Fin 255, T4 c = if c.val % 85 = 1 then 1 else 0)
    (hA : ∀ a k, ∃ q : ℝ, A a k = (q : EReal))
    (x : SX.Idx → EReal) (d : IVec SS 32) (hx : ∀ i, ∃ r : ℝ, x i = (r : EReal))
    (hS : ∃ s : ℝ, s ≠ 0 ∧ stride d = (s : EReal)) :
    outK T0 T1 T2 T3 T4 x d = outR A x d := by
  funext j
  obtain ⟨r, hr⟩ := hx (ix4 (oB j) (oC j) (oGy j) (oGx j))
  obtain ⟨s, hs, hS⟩ := hS
  have hmod := oC_mod j
  have ht := (oT j).isLt
  have ha := (oA j).isLt
  unfold outK outR xAt fGx fGy rval
  rw [hr, hS, hT0, hT2, hT3, hT4, hmod, sigH_eq, one_eq, zero_eq]
  by_cases h0 : (oT j).val = 0
  · rw [if_pos h0, hT1o (oC j) (by omega),
      if_pos (show (oT j).val < 2 by omega), if_neg (show ¬((oT j).val = 2 ∨ (oT j).val = 3) by omega),
      if_pos h0, if_neg (show ¬(oT j).val = 1 by omega)]
    exact kval_offset_x r s _ _
  rw [if_neg h0]
  by_cases h1 : (oT j).val = 1
  · rw [if_pos h1, hT1o (oC j) (by omega),
      if_pos (show (oT j).val < 2 by omega), if_neg (show ¬((oT j).val = 2 ∨ (oT j).val = 3) by omega),
      if_neg h0, if_pos h1]
    exact kval_offset_y r s _ _
  rw [if_neg h1]
  by_cases h4 : (oT j).val < 4
  · rw [dif_pos h4]
    have hk : (oT j).val - 2 < 2 := by omega
    have hc : oC j = ⟨(oA j).val * 85 + (2 + (⟨(oT j).val - 2, hk⟩ : Fin 2).val), by omega⟩ :=
      Fin.ext (by rw [oC_val]; show _ = (oA j).val * 85 + (2 + ((oT j).val - 2)); omega)
    obtain ⟨q, hq⟩ := hA (oA j) ⟨(oT j).val - 2, hk⟩
    rw [show T1 (oC j) = A (oA j) ⟨(oT j).val - 2, hk⟩ from by rw [hc]; exact hT1s (oA j) ⟨(oT j).val - 2, hk⟩, hq,
      if_neg (show ¬(oT j).val < 2 by omega), if_pos (show (oT j).val = 2 ∨ (oT j).val = 3 by omega),
      if_neg h0, if_neg h1]
    exact kval_size r s q _ _ hs
  · rw [dif_neg h4, hT1o (oC j) (by omega),
      if_neg (show ¬(oT j).val < 2 by omega), if_neg (show ¬((oT j).val = 2 ∨ (oT j).val = 3) by omega),
      if_neg h0, if_neg h1]
    exact kval_rest r s _ _

end Cert.Spec

end
-- ==== Proof.Tables.lean ====
/-
  What the programs' constant tables hold.  The kernel carries five tables over the 255 channels `c = a·85 + t`
  (anchor `a`, attribute `t`): is-x-or-y (`1.0` on attributes 0, 1), the multiplier (the anchor's width on attribute 2,
  its height on attribute 3, else `1.0`), uses-exp (`1.0` on attributes 2, 3), is-x (attribute 0), is-y (attribute 1);
  the reference carries the 3×2 table of anchor sizes.  Each fact is an equality of 32-bit words decided over the
  channels; the words `1.0` and `0.0` denote one and zero, and a word whose exponent field is not all ones denotes a
  real.
-/
import proofs.«131963_g56642028700200_fold_wed_c4_437_7_alg».proof.KernelIdeal
import proofs.«131963_g56642028700200_fold_wed_c4_437_7_alg».proof.ReferenceIdeal
import proofs.«131963_g56642028700200_fold_wed_c4_437_7_alg».proof.Proof.Algebra

noncomputable section

namespace Cert.Tables

open Idealize.ShloMosaic Idealize.ShloMosaic.ValueIdx

/-- The kernel's tables and the reference's anchor table, as extended reals. -/
abbrev K0 (c : Fin 255) : EReal := Ideal.ofBits .f32 (Cert.KernelIdeal.lit0 c)
abbrev K1 (c : Fin 255) : EReal := Ideal.ofBits .f32 (Cert.KernelIdeal.lit1 c)
abbrev K2 (c : Fin 255) : EReal := Ideal.ofBits .f32 (Cert.KernelIdeal.lit2 c)
abbrev K3 (c : Fin 255) : EReal := Ideal.ofBits .f32 (Cert.KernelIdeal.lit3 c)
abbrev K4 (c : Fin 255) : EReal := Ideal.ofBits .f32 (Cert.KernelIdeal.lit4 c)
abbrev RA (a : Fin 3) (k : Fin 2) : EReal :=
  Ideal.ofBits .f32 (Cert.ReferenceIdeal.lit0 (Cert.ReferenceIdeal.S3x2.rowMajor (ix2 a k)))

/-! ## The words -/

theorem w0 : ∀ c : Fin 255, Cert.KernelIdeal.lit0 c = if c.val % 85 < 2 then 0x3F800000#32 else 0x00000000#32 := by
  decide +kernel
theorem w2 : ∀ c : Fin 255, Cert.KernelIdeal.lit2 c = if c.val % 85 = 2 ∨ c.val % 85 = 3 then 0x3F800000#32 else 0x00000000#32 := by
  decide +kernel
theorem w3 : ∀ c : Fin 255, Cert.KernelIdeal.lit3 c = if c.val % 85 = 0 then 0x3F800000#32 else 0x00000000#32 := by
  decide +kernel
theorem w4 : ∀ c : Fin 255, Cert.KernelIdeal.lit4 c = if c.val % 85 = 1 then 0x3F800000#32 else 0x00000000#32 := by
  decide +kernel
theorem w1_other : ∀ c : Fin 255, ¬(c.val % 85 = 2 ∨ c.val % 85 = 3) → Cert.KernelIdeal.lit1 c = 0x3F800000#32 := by
  decide +kernel
/-- The multiplier on a box-size channel is the reference's anchor entry, word for word. -/
theorem w1_size : ∀ (a : Fin 3) (k : Fin 2),
    Cert.KernelIdeal.lit1 ⟨a.val * 85 + (2 + k.val), by have := a.isLt; have := k.isLt; omega⟩
      = Cert.ReferenceIdeal.lit0 (Cert.ReferenceIdeal.S3x2.rowMajor (ix2 a k)) := by
  decide +kernel
/-- No anchor entry has an all-ones exponent field. -/
theorem wA_finite : ∀ (a : Fin 3) (k : Fin 2),
    ((Cert.ReferenceIdeal.lit0 (Cert.ReferenceIdeal.S3x2.rowMajor (ix2 a k))).extractLsb' 23 8).toNat ≠ 255 := by
  decide +kernel

/-! ## What they denote -/

/-- A 32-bit pattern whose exponent field is not all ones denotes a real number. -/
theorem real_of_exponent (b : BitVec 32) (h : (b.extractLsb' 23 8).toNat ≠ 255) :
    ∃ q : ℝ, Ideal.ofBits .f32 b = (q : EReal) := by
  show ∃ q : ℝ, Ideal.ieee 8 23 b = (q : EReal)
  unfold Ideal.ieee
  dsimp only
  rw [if_neg (by norm_num; exact h)]
  split_ifs <;> exact ⟨_, rfl⟩

theorem K0_eq (c : Fin 255) : K0 c = if c.val % 85 < 2 then 1 else 0 := by
  show Ideal.ofBits .f32 (Cert.KernelIdeal.lit0 c) = _
  rw [w0 c]; split_ifs
  · exact Cert.Spec.one_eq
  · exact Cert.Spec.zero_eq
theorem K2_eq (c : Fin 255) : K2 c = if c.val % 85 = 2 ∨ c.val % 85 = 3 then 1 else 0 := by
  show Ideal.ofBits .f32 (Cert.KernelIdeal.lit2 c) = _
  rw [w2 c]; split_ifs
  · exact Cert.Spec.one_eq
  · exact Cert.Spec.zero_eq
theorem K3_eq (c : Fin 255) : K3 c = if c.val % 85 = 0 then 1 else 0 := by
  show Ideal.ofBits .f32 (Cert.KernelIdeal.lit3 c) = _
  rw [w3 c]; split_ifs
  · exact Cert.Spec.one_eq
  · exact Cert.Spec.zero_eq
theorem K4_eq (c : Fin 255) : K4 c = if c.val % 85 = 1 then 1 else 0 := by
  show Ideal.ofBits .f32 (Cert.KernelIdeal.lit4 c) = _
  rw [w4 c]; split_ifs
  · exact Cert.Spec.one_eq
  · exact Cert.Spec.zero_eq
theorem K1_other (c : Fin 255) (h : ¬(c.val % 85 = 2 ∨ c.val % 85 = 3)) : K1 c = 1 := by
  show Ideal.ofBits .f32 (Cert.KernelIdeal.lit1 c) = _
  rw [w1_other c h]; exact Cert.Spec.one_eq
theorem K1_size (a : Fin 3) (k : Fin 2) :
    K1 ⟨a.val * 85 + (2 + k.val), by have := a.isLt; have := k.isLt; omega⟩ = RA a k := by
  show Ideal.ofBits .f32 (Cert.KernelIdeal.lit1 _) = Ideal.ofBits .f32 _
  rw [w1_size a k]
theorem RA_real (a : Fin 3) (k : Fin 2) : ∃ q : ℝ, RA a k = (q : EReal) :=
  real_of_exponent _ (wA_finite a k)

/-- The kernel's array over its tables is the reference's over its anchor table, on finite inputs with a nonzero stride. -/
theorem outK_eq_outR (x : Cert.Spec.SX.Idx → EReal) (d : IVec Cert.Spec.SS 32) (hx : ∀ i, ∃ r : ℝ, x i = (r : EReal))
    (hS : ∃ s : ℝ, s ≠ 0 ∧ Cert.Spec.stride d = (s : EReal)) :
    Cert.Spec.outK K0 K1 K2 K3 K4 x d = Cert.Spec.outR RA x d :=
  Cert.Spec.outK_eq_outR K0 K1 K2 K3 K4 RA K0_eq K1_size K1_other K2_eq K3_eq K4_eq RA_real x d hx hS

end Cert.Tables

end
-- ==== Proof.lean ====
/-
  The claim: a YOLO box decoder as a pipelined kernel against its jnp reference, over the extended reals.

  Input `x[16, 255, 76, 76]` and a scalar `input_dim`; with the stride `S = input_dim // 76` read as a real and
  `σ v = 1 / (1 + e^(−v))`, the output element `[b, (gy·76 + gx)·3 + a, t]` is computed from `v = x[b, a·85 + t, gy, gx]`:
  `(σ v + gx)·S`, `(σ v + gy)·S`, `e^v · anchor_w[a]`, `e^v · anchor_h[a]` for `t = 0, 1, 2, 3` and `σ v` beyond.
  The kernel evaluates one formula per channel over constant tables of zeros, ones, the stride and the anchor sizes;
  the reference slices the attribute axis and divides the anchors by `S` before multiplying by `S` again.  Under the
  precondition — every input element finite, and `input_dim // 76 ≠ 0`, the reference's own divisor — every
  quantity is a real and the two forms agree attribute by attribute (Proof/Algebra.lean, over the tables' words
  decided in Proof/Tables.lean).

  The three programs run to the end with their arguments unchanged: the kernel's program at both float instances by
  its pipeline's frame (Proof/KFrameBits.lean, Proof/KFrameIdeal.lean: host operations, the region over 38 grid
  points, the closing reshape), the reference's by the fold of its host operations (Proof/RRun.lean).  The kernel's
  result array is read off the frame run block by block (Proof/KPayload.lean: the body's arithmetic at an index;
  Proof/KHost.lean: the transposed input and the table's four rows as the host prefix leaves them;
  Proof/KValue.lean: the blocks cover the array, the closing reshape), the reference's off its fold index by index
  (Proof/RRead.lean, Proof/RValue.lean); Proof/PreFacts.lean reads the precondition.  No rewrite was applied when
  the kernel was idealized, so nothing is owed for it.
-/
import proofs.«131963_g56642028700200_fold_wed_c4_437_7_alg».proof.Defs
import proofs.«131963_g56642028700200_fold_wed_c4_437_7_alg».proof.Proof.Gen.Kernel
import proofs.«131963_g56642028700200_fold_wed_c4_437_7_alg».proof.Proof.Gen.KernelIdeal
import proofs.«131963_g56642028700200_fold_wed_c4_437_7_alg».proof.Proof.Gen.ReferenceIdeal
import proofs.«131963_g56642028700200_fold_wed_c4_437_7_alg».proof.Proof.Gen.Pre_finite_inputs
import proofs.«131963_g56642028700200_fold_wed_c4_437_7_alg».proof.Proof.KFrameBits
import proofs.«131963_g56642028700200_fold_wed_c4_437_7_alg».proof.Proof.KFrameIdeal
import proofs.«131963_g56642028700200_fold_wed_c4_437_7_alg».proof.Proof.KValue
import proofs.«131963_g56642028700200_fold_wed_c4_437_7_alg».proof.Proof.RValue
import proofs.«131963_g56642028700200_fold_wed_c4_437_7_alg».proof.Proof.PreFacts
import proofs.«131963_g56642028700200_fold_wed_c4_437_7_alg».proof.Proof.Tables
import Idealize.ShloMosaic.Adequacy
import Idealize.ShloMosaic.Init

noncomputable section

namespace Cert.Proof

open Idealize.ShloMosaic Idealize.SL.Sem

/-- The kernel's program, word level: it runs and leaves both arguments as launched. -/
theorem frame_kernel : Cert.frame_Kernel (hKernel := Cert.Kernel.Gen.facts) (hPre_finite_inputs := Cert.Pre_finite_inputs.Gen.facts) :=
  fun m ρ _ => Cert.Kernel.Decode.frame m ρ

/-- The same program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Decode.frame m ρ

/-- The reference: its run to the fold of its operations, the result dropped. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Decode.value_run m ρ)

/-- From memories agreeing on the arguments both idealized programs end with the kernel's array `outK` of the
    arguments: the kernel by its value run, the reference because its own array `outR` is `outK` on finite inputs with a
    nonzero stride, which is what the precondition says. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.outK Cert.Tables.K0 Cert.Tables.K1 Cert.Tables.K2 Cert.Tables.K3 Cert.Tables.K4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Decode.value_run m ρ, ?_⟩
  refine (θ_run (Cert.ReferenceIdeal.defs (F := Ideal)) _ _).mono (fun _ h c => ⟨(h c).1.trans ?_, (h c).2⟩)
    (Cert.ReferenceIdeal.Decode.value_run m' ρ')
  rw [(hagree c).1, (hagree c).2]
  exact (Cert.Tables.outK_eq_outR _ _
    (Cert.Pre_finite_inputs.Decode.finite_of_pre _ _ (hpre c))
    (Cert.Pre_finite_inputs.Decode.stride_real _ (Cert.Pre_finite_inputs.Decode.stride_ne_zero_of_pre _ _ (hpre c)))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
